-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S1725 : Shape := ⟨1, ![1725]⟩
abbrev S3x512 : Shape := ⟨2, ![3, 512]⟩
abbrev S9x512 : Shape := ⟨2, ![9, 512]⟩
abbrev S512x512 : Shape := ⟨2, ![512, 512]⟩
abbrev S128x512 : Shape := ⟨2, ![128, 512]⟩
abbrev S32x512 : Shape := ⟨2, ![32, 512]⟩
abbrev S129x512 : Shape := ⟨2, ![129, 512]⟩
abbrev S16x512 : Shape := ⟨2, ![16, 512]⟩
abbrev S512 : Shape := ⟨1, ![512]⟩
abbrev S_ : Shape := ⟨0, ![]⟩

class Facts : Prop where
  bcast_S_S3x512 : S_.BroadcastsInDim S3x512 (![] : Fin 0 → Fin S3x512.rank)
  reducesTo_S3x512_S_d0_1 : S3x512.ReducesTo [0, 1] S_
  h_S_ : 0 < S_.numel
  bcast_S_S9x512 : S_.BroadcastsInDim S9x512 (![] : Fin 0 → Fin S9x512.rank)
  reducesTo_S9x512_S_d0_1 : S9x512.ReducesTo [0, 1] S_
  bcast_S_S512x512 : S_.BroadcastsInDim S512x512 (![] : Fin 0 → Fin S512x512.rank)
  reducesTo_S512x512_S_d0_1 : S512x512.ReducesTo [0, 1] S_
  bcast_S_S128x512 : S_.BroadcastsInDim S128x512 (![] : Fin 0 → Fin S128x512.rank)
  reducesTo_S128x512_S_d0_1 : S128x512.ReducesTo [0, 1] S_
  bcast_S_S32x512 : S_.BroadcastsInDim S32x512 (![] : Fin 0 → Fin S32x512.rank)
  reducesTo_S32x512_S_d0_1 : S32x512.ReducesTo [0, 1] S_
  bcast_S_S129x512 : S_.BroadcastsInDim S129x512 (![] : Fin 0 → Fin S129x512.rank)
  reducesTo_S129x512_S_d0_1 : S129x512.ReducesTo [0, 1] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_
  bcast_S_S32x8192 : S_.BroadcastsInDim S32x8192 (![] : Fin 0 → Fin S32x8192.rank)
  reducesTo_S32x8192_S_d0_1 : S32x8192.ReducesTo [0, 1] S_
  bcast_S_S1725 : S_.BroadcastsInDim S1725 (![] : Fin 0 → Fin S1725.rank)
  reducesTo_S1725_S_d0 : S1725.ReducesTo [0] S_

variable [Facts]

def fn_part4 {F : FTy → Type} [FloatOps F] (main_arg1 : IVec S1725 32) (main_v65 : IVec S_ 1) (main_v67 : IVec S1725 1) : IVec S_ 1 :=
  let main_c_26 : IVec S_ 32 := constantI S_ 32 1726#32
  let main_v68 : IVec S1725 32 := broadcastInDim S1725 ![] bcast_S_S1725 main_c_26
  let main_v69 : IVec S1725 1 := cmpi .slt main_arg1 main_v68
  let main_v70 : IVec S1725 1 := andi main_v67 main_v69
  let main_c_27 : IVec S_ 1 := constantI S_ 1 1#1
  let main_v71 : IVec S_ 1 := (fun x v => Host.reduce IntOp.andi x v reducesTo_S1725_S_d0 h_S_) main_v70 main_c_27
  let main_v72 : IVec S_ 1 := andi main_v65 main_v71
  main_v72

def fn_part3 {F : FTy → Type} [FloatOps F] (main_arg0 : IVec S32x8192 32) (main_arg1 : IVec S1725 32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_c_22 : IVec S_ 32 := constantI S_ 32 0#32
  let main_v59 : IVec S32x8192 32 := broadcastInDim S32x8192 ![] bcast_S_S32x8192 main_c_22
  let main_v60 : IVec S32x8192 1 := cmpi .sge main_arg0 main_v59
  let main_c_23 : IVec S_ 32 := constantI S_ 32 1725#32
  let main_v61 : IVec S32x8192 32 := broadcastInDim S32x8192 ![] bcast_S_S32x8192 main_c_23
  let main_v62 : IVec S32x8192 1 := cmpi .slt main_arg0 main_v61
  let main_v63 : IVec S32x8192 1 := andi main_v60 main_v62
  let main_c_24 : IVec S_ 1 := constantI S_ 1 1#1
  let main_v64 : IVec S_ 1 := (fun x v => Host.reduce IntOp.andi x v reducesTo_S32x8192_S_d0_1 h_S_) main_v63 main_c_24
  let main_v65 : IVec S_ 1 := andi main_v58 main_v64
  let main_c_25 : IVec S_ 32 := constantI S_ 32 0#32
  let main_v66 : IVec S1725 32 := broadcastInDim S1725 ![] bcast_S_S1725 main_c_25
  let main_v67 : IVec S1725 1 := cmpi .sge main_arg1 main_v66
  fn_part4 (F := F) main_arg1 main_v65 main_v67

def fn_part2 {F : FTy → Type} [FloatOps F] (main_arg0 : IVec S32x8192 32) (main_arg1 : IVec S1725 32) (main_arg9 : FVec F S128x512 .f32) (main_arg10 : FVec F S128x512 .f32) (main_arg11 : FVec F S128x512 .f32) (main_arg12 : FVec F S512x512 .f32) (main_arg13 : FVec F S512 .f32) (main_v33 : IVec S_ 1) : IVec S_ 1 :=
  let main_v34 : FVec F S128x512 .f32 := Host.absf main_arg9
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S128x512 .f32 := Host.absf main_arg10
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S128x512 .f32 := Host.absf main_arg11
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S512x512 .f32 := Host.absf main_arg12
  let main_cst_18 : FVec F S_ .f32 := constant S_ .f32 0x7F800000#32
  let main_v50 : FVec F S512x512 .f32 := broadcastInDim S512x512 ![] bcast_S_S512x512 main_cst_18
  fn_part3 (F := F) main_arg0 main_arg1 main_arg13 main_v48 main_v49 main_v50

def fn_part1 {F : FTy → Type} [FloatOps F] (main_arg0 : IVec S32x8192 32) (main_arg1 : IVec S1725 32) (main_arg6 : FVec F S32x512 .f32) (main_arg7 : FVec F S129x512 .f32) (main_arg8 : FVec F S16x512 .f32) (main_arg9 : FVec F S128x512 .f32) (main_arg10 : FVec F S128x512 .f32) (main_arg11 : FVec F S128x512 .f32) (main_arg12 : FVec F S512x512 .f32) (main_arg13 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S32x512 .f32 := Host.absf main_arg6
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S129x512 .f32 := Host.absf main_arg7
  let main_cst_8 : FVec F S_ .f32 := constant S_ .f32 0x7F800000#32
  let main_v25 : FVec F S129x512 .f32 := broadcastInDim S129x512 ![] bcast_S_S129x512 main_cst_8
  let main_v26 : IVec S129x512 1 := cmpf .olt main_v24 main_v25
  let main_c_9 : IVec S_ 1 := constantI S_ 1 1#1
  let main_v27 : IVec S_ 1 := (fun x v => Host.reduce IntOp.andi x v reducesTo_S129x512_S_d0_1 h_S_) main_v26 main_c_9
  let main_v28 : IVec S_ 1 := andi main_v23 main_v27
  let main_v29 : FVec F S16x512 .f32 := Host.absf main_arg8
  let main_cst_10 : FVec F S_ .f32 := constant S_ .f32 0x7F800000#32
  let main_v30 : FVec F S16x512 .f32 := broadcastInDim S16x512 ![] bcast_S_S16x512 main_cst_10
  let main_v31 : IVec S16x512 1 := cmpf .olt main_v29 main_v30
  let main_c_11 : IVec S_ 1 := constantI S_ 1 1#1
  let main_v32 : IVec S_ 1 := (fun x v => Host.reduce IntOp.andi x v reducesTo_S16x512_S_d0_1 h_S_) main_v31 main_c_11
  let main_v33 : IVec S_ 1 := andi main_v28 main_v32
  fn_part2 (F := F) main_arg0 main_arg1 main_arg9 main_arg10 main_arg11 main_arg12 main_arg13 main_v33

def fn {F : FTy → Type} [FloatOps F] (main_arg0 : IVec S32x8192 32) (main_arg1 : IVec S1725 32) (main_arg2 : FVec F S3x512 .f32) (main_arg3 : FVec F S9x512 .f32) (main_arg4 : FVec F S512x512 .f32) (main_arg5 : FVec F S128x512 .f32) (main_arg6 : FVec F S32x512 .f32) (main_arg7 : FVec F S129x512 .f32) (main_arg8 : FVec F S16x512 .f32) (main_arg9 : FVec F S128x512 .f32) (main_arg10 : FVec F S128x512 .f32) (main_arg11 : FVec F S128x512 .f32) (main_arg12 : FVec F S512x512 .f32) (main_arg13 : FVec F S512 .f32) : IVec S_ 1 :=
  let main_v0 : FVec F S3x512 .f32 := Host.absf main_arg2
  let main_cst : FVec F S_ .f32 := constant S_ .f32 0x7F800000#32
  let main_v1 : FVec F S3x512 .f32 := broadcastInDim S3x512 ![] bcast_S_S3x512 main_cst
  let main_v2 : IVec S3x512 1 := cmpf .olt main_v0 main_v1
  let main_c : IVec S_ 1 := constantI S_ 1 1#1
  let main_v3 : IVec S_ 1 := (fun x v => Host.reduce IntOp.andi x v reducesTo_S3x512_S_d0_1 h_S_) main_v2 main_c
  let main_v4 : FVec F S9x512 .f32 := Host.absf main_arg3
  let main_cst_0 : FVec F S_ .f32 := constant S_ .f32 0x7F800000#32
  let main_v5 : FVec F S9x512 .f32 := broadcastInDim S9x512 ![] bcast_S_S9x512 main_cst_0
  let main_v6 : IVec S9x512 1 := cmpf .olt main_v4 main_v5
  let main_c_1 : IVec S_ 1 := constantI S_ 1 1#1
  let main_v7 : IVec S_ 1 := (fun x v => Host.reduce IntOp.andi x v reducesTo_S9x512_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S128x512 .f32 := Host.absf main_arg5
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg0 main_arg1 main_arg6 main_arg7 main_arg8 main_arg9 main_arg10 main_arg11 main_arg12 main_arg13 main_v13 main_v16
-- ==== Kernel.lean ====
abbrev S32x8192 : Shape := ⟨2, ![32, 8192]⟩
abbrev S1725 : Shape := ⟨1, ![1725]⟩
abbrev S3x512 : Shape := ⟨2, ![3, 512]⟩
abbrev S9x512 : Shape := ⟨2, ![9, 512]⟩
abbrev S512x512 : Shape := ⟨2, ![512, 512]⟩
abbrev S128x512 : Shape := ⟨2, ![128, 512]⟩
abbrev S32x512 : Shape := ⟨2, ![32, 512]⟩
abbrev S129x512 : Shape := ⟨2, ![129, 512]⟩
abbrev S16x512 : Shape := ⟨2, ![16, 512]⟩
abbrev S512 : Shape := ⟨1, ![512]⟩
abbrev S1x512 : Shape := ⟨2, ![1, 512]⟩
abbrev S1726x512 : Shape := ⟨2, ![1726, 512]⟩
abbrev S_ : Shape := ⟨0, ![]⟩
abbrev S1792x512 : Shape := ⟨2, ![1792, 512]⟩
abbrev S32x8192x1 : Shape := ⟨3, ![32, 8192, 1]⟩
abbrev S1 : Shape := ⟨1, ![1]⟩
abbrev S1x1x1 : Shape := ⟨3, ![1, 1, 1]⟩
abbrev S262144 : Shape := ⟨1, ![262144]⟩
abbrev S262144x1 : Shape := ⟨2, ![262144, 1]⟩
abbrev S262144x512 : Shape := ⟨2, ![262144, 512]⟩
abbrev S1024x1 : Shape := ⟨2, ![1024, 1]⟩
abbrev S1024x512 : Shape := ⟨2, ![1024, 512]⟩
abbrev S256x512 : Shape := ⟨2, ![256, 512]⟩
abbrev S1024x256 : Shape := ⟨2, ![1024, 256]⟩
abbrev S32x8192x512 : Shape := ⟨3, ![32, 8192, 512]⟩

abbrev nBuf : Space → Nat
  | .hbm => 57
  | .vmem => 6
  | .smem => 0
  | _ => 0

abbrev bufTy : (tb : Table) → Fin (tcTables nBuf tb) → BufTy
  | .hbm, ⟨0, _⟩ => ⟨S32x8192, .i32⟩
  | .hbm, ⟨1, _⟩ => ⟨S1725, .i32⟩
  | .hbm, ⟨2, _⟩ => ⟨S3x512, .f32⟩
  | .hbm, ⟨3, _⟩ => ⟨S9x512, .f32⟩
  | .hbm, ⟨4, _⟩ => ⟨S512x512, .f32⟩
  | .hbm, ⟨5, _⟩ => ⟨S128x512, .f32⟩
  | .hbm, ⟨6, _⟩ => ⟨S32x512, .f32⟩
  | .hbm, ⟨7, _⟩ => ⟨S129x512, .f32⟩
  | .hbm, ⟨8, _⟩ => ⟨S16x512, .f32⟩
  | .hbm, ⟨9, _⟩ => ⟨S128x512, .f32⟩
  | .hbm, ⟨10, _⟩ => ⟨S128x512, .f32⟩
  | .hbm, ⟨11, _⟩ => ⟨S128x512, .f32⟩
  | .hbm, ⟨12, _⟩ => ⟨S512x512, .f32⟩
  | .hbm, ⟨13, _⟩ => ⟨S512, .f32⟩
  | .hbm, ⟨14, _⟩ => ⟨S1x512, .f32⟩
  | .hbm, ⟨15, _⟩ => ⟨S1726x512, .f32⟩
  | .hbm, ⟨16, _⟩ => ⟨S_, .i32⟩
  | .hbm, ⟨17, _⟩ => ⟨S_, .f32⟩
  | .hbm, ⟨18, _⟩ => ⟨S1792x512, .f32⟩
  | .hbm, ⟨19, _⟩ => ⟨S1792x512, .bf16⟩
  | .hbm, ⟨20, _⟩ => ⟨S1792x512, .f32⟩
  | .hbm, ⟨21, _⟩ => ⟨S1792x512, .f32⟩
  | .hbm, ⟨22, _⟩ => ⟨S1792x512, .bf16⟩
  | .hbm, ⟨23, _⟩ => ⟨S_, .i32⟩
  | .hbm, ⟨24, _⟩ => ⟨S32x8192, .i32⟩
  | .hbm, ⟨25, _⟩ => ⟨S32x8192, .i1⟩
  | .hbm, ⟨26, _⟩ => ⟨S_, .i32⟩
  | .hbm, ⟨27, _⟩ => ⟨S32x8192, .i32⟩
  | .hbm, ⟨28, _⟩ => ⟨S32x8192, .i32⟩
  | .hbm, ⟨29, _⟩ => ⟨S32x8192, .i32⟩
  | .hbm, ⟨30, _⟩ => ⟨S32x8192x1, .i32⟩
  | .hbm, ⟨31, _⟩ => ⟨S1, .i32⟩
  | .hbm, ⟨32, _⟩ => ⟨S_, .i32⟩
  | .hbm, ⟨33, _⟩ => ⟨S32x8192x1, .i32⟩
  | .hbm, ⟨34, _⟩ => ⟨S32x8192x1, .i1⟩
  | .hbm, ⟨35, _⟩ => ⟨S1x1x1, .i32⟩
  | .hbm, ⟨36, _⟩ => ⟨S32x8192x1, .i32⟩
  | .hbm, ⟨37, _⟩ => ⟨S32x8192x1, .i1⟩
  | .hbm, ⟨38, _⟩ => ⟨S32x8192x1, .i1⟩
  | .hbm, ⟨39, _⟩ => ⟨S_, .i1⟩
  | .hbm, ⟨40, _⟩ => ⟨S32x8192, .i1⟩
  | .hbm, ⟨41, _⟩ => ⟨S32x8192, .i32⟩
  | .hbm, ⟨42, _⟩ => ⟨S_, .i32⟩
  | .hbm, ⟨43, _⟩ => ⟨S32x8192, .i32⟩
  | .hbm, ⟨44, _⟩ => ⟨S32x8192, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S32x8192, .i32⟩
  | .hbm, ⟨49, _⟩ => ⟨S32x8192, .i32⟩
  | .hbm, ⟨50, _⟩ => ⟨S_, .i32⟩
  | .hbm, ⟨51, _⟩ => ⟨S32x8192, .i32⟩
  | .hbm, ⟨52, _⟩ => ⟨S32x8192, .i32⟩
  | .hbm, ⟨53, _⟩ => ⟨S262144, .i32⟩
  | .hbm, ⟨54, _⟩ => ⟨S262144x1, .i32⟩
  | .hbm, ⟨55, _⟩ => ⟨S262144x512, .f32⟩
  | .hbm, ⟨56, _⟩ => ⟨S32x8192x512, .f32⟩
  | .local _ .vmem, ⟨0, _⟩ => ⟨S1024x1, .i32⟩
  | .local _ .vmem, ⟨1, _⟩ => ⟨S1024x1, .i32⟩
  | .local _ .vmem, ⟨2, _⟩ => ⟨S1792x512, .bf16⟩
  | .local _ .vmem, ⟨3, _⟩ => ⟨S1792x512, .bf16⟩
  | .local _ .vmem, ⟨4, _⟩ => ⟨S1024x512, .f32⟩
  | .local _ .vmem, ⟨5, _⟩ => ⟨S1024x512, .f32⟩
  | _, _ => ⟨S32x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_c_4 : Ref sig .tc := ⟨.hbm, 42, rfl⟩
abbrev main_call1_v14 : Ref sig .tc := ⟨.hbm, 43, rfl⟩
abbrev main_v7 : Ref sig .tc := ⟨.hbm, 44, rfl⟩
abbrev main_c_0 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def k0_mult1 : BitVec 32 :=
  let c0_i32 : BitVec 32 := 0#32
  let c256_i32 : BitVec 32 := 256#32
  let v3 : BitVec 32 := Scalar.muli c0_i32 c256_i32
  v3
def k0_off1 (c0_i32 : BitVec 32) : Fin 2 → Nat :=
  let c256_i32 : BitVec 32 := 256#32
  let v3 : BitVec 32 := Scalar.muli c0_i32 c256_i32
  let v4 : BitVec 32 := v3
  let v5 : Index := Scalar.indexCast v4
  let c0_1 : Index := 0#32
  ![v5.toNat, 0]
def k0_mult2 : BitVec 32 :=
  let c1_i32 : BitVec 32 := 1#32
  let c256_i32_5 : BitVec 32 := 256#32
  let v23 : BitVec 32 := Scalar.muli c1_i32 c256_i32_5
  v23
def k0_mult3 : BitVec 32 :=
  let c2_i32 : BitVec 32 := 2#32
  let c256_i32_10 : BitVec 32 := 256#32
  let v43 : BitVec 32 := Scalar.muli c2_i32 c256_i32_10
  v43
def k0_mult4 : BitVec 32 :=
  let c3_i32 : BitVec 32 := 3#32
  let c256_i32_15 : BitVec 32 := 256#32
  let v63 : BitVec 32 := Scalar.muli c3_i32 c256_i32_15
  v63
def k0_mult5 : BitVec 32 :=
  let c4_i32 : BitVec 32 := 4#32
  let c256_i32_20 : BitVec 32 := 256#32
  let v83 : BitVec 32 := Scalar.muli c4_i32 c256_i32_20
  v83
def k0_mult6 : BitVec 32 :=
  let c5_i32 : BitVec 32 := 5#32
  let c256_i32_25 : BitVec 32 := 256#32
  let v103 : BitVec 32 := Scalar.muli c5_i32 c256_i32_25
  v103
def k0_mult7 : BitVec 32 :=
  let c6_i32 : BitVec 32 := 6#32
  let c256_i32_30 : BitVec 32 := 256#32
  let v123 : BitVec 32 := Scalar.muli c6_i32 c256_i32_30
  v123
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S1x512_1 : S512.BroadcastsInDim S1x512 (![1] : Fin 1 → Fin S1x512.rank)
  concatenates_S3x512_S9x512_S512x512_S128x512_S32x512_S129x512_S16x512_S128x512_S128x512_S128x512_S512x512_S1x512_S1726x512_d0 : Shape.Concatenates [S3x512, S9x512, S512x512, S128x512, S32x512, S129x512, S16x512, S128x512, S128x512, S128x512, S512x512, S1x512] S1726x512 0
  pads_S1726x512_S1792x512_0660_000 : S1726x512.Pads (![0, 0] : Fin 2 → Nat) ![66, 0] ![0, 0] S1792x512
  h_S_ : 0 < S_.numel
  bitsLt_bf16_f32 : FTy.bits .bf16 < FTy.bits .f32
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  shapeCasts_S32x8192_S262144 : S32x8192.ShapeCasts S262144
  shapeCasts_S262144_S262144x1 : S262144.ShapeCasts S262144x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S256x512 : 0 < S256x512.numel
  shapeCasts_S256x512_S256x512 : S256x512.ShapeCasts S256x512
  iota_S1024x256_d1_w32 : S1024x256.Iotas .tc 32 [1]
  broadcasts_S1024x1_S1024x256 : S1024x1.Broadcasts S1024x256
  natLt_1_32 : 1 < 32
  inb_S1024x512_S1024x512_0_0 : ∀ a, (![0, 0] : Fin 2 → Nat) a + S1024x512.size a ≤ S1024x512.size a
  h_S1024x512 : 0 < S1024x512.numel
  shapeCasts_S262144x512_S32x8192x512 : S262144x512.ShapeCasts S32x8192x512
  gather_S1725_S32x8192x1_S32x8192_n_0_n_n_0_2_1_wf : GatherDims.WF S1725 S32x8192x1 S32x8192 [] [0] [] [0] [] 2 ![1]
  dot_S1024x256_S256x512_S1024x512_1_0_0_1_n_n_wf : DotDims.WF S1024x256 S256x512 S1024x512 [1] [0] [0] [1] [] []
  hrank0 : 0 < grid0.rank
  k0_mult1_dvd : 256 ∣ k0_mult1.toNat
  k0_off1_inb : ∀ (r : Fin 7), ∀ a, (k0_off1 (BitVec.ofNat 32 r.val)) a + S256x512.size a ≤ S1792x512.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S262144x1.size a
  hwx0_0 : ∀ i : grid0.Coords, EltTy.bits .i32 = 32 ∨ (Rect.block (s := S262144x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1792x512.size a ≤ S1792x512.size a
  hwx0_1 : ∀ i : grid0.Coords, EltTy.bits .bf16 = 32 ∨ (Rect.block (s := S1792x512) S1792x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1792x512.size a ≤ S1792x512.size a
  hwx0_2 : ∀ i : grid0.Coords, EltTy.bits .bf16 = 32 ∨ (Rect.block (s := S1792x512) S1792x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S262144x512.size a
  hwx0_3 : ∀ i : grid0.Coords, EltTy.bits .f32 = 32 ∨ (Rect.block (s := S262144x512) S1024x512.size (cc0_transform_3 i) (hinb0_3 i)).WholeWords (EltTy.packing .f32)

variable [Facts₀]

def gather_S1725_S32x8192x1_S32x8192_n_0_n_n_0_2_1 : GatherDims S1725 S32x8192x1 S32x8192 where
  offsetDims := []
  collapsedSliceDims := [0]
  operandBatchingDims := []
  startIndicesBatchingDims := []
  startIndexMap := [0]
  indexVectorDim := 2
  sliceSizes := ![1]
  wf := gather_S1725_S32x8192x1_S32x8192_n_0_n_n_0_2_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v10) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1792x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1792x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192 : Shape := ⟨2, ![32, 8192]⟩
abbrev S1725 : Shape := ⟨1, ![1725]⟩
abbrev S3x512 : Shape := ⟨2, ![3, 512]⟩
abbrev S9x512 : Shape := ⟨2, ![9, 512]⟩
abbrev S512x512 : Shape := ⟨2, ![512, 512]⟩
abbrev S128x512 : Shape := ⟨2, ![128, 512]⟩
abbrev S32x512 : Shape := ⟨2, ![32, 512]⟩
abbrev S129x512 : Shape := ⟨2, ![129, 512]⟩
abbrev S16x512 : Shape := ⟨2, ![16, 512]⟩
abbrev S512 : Shape := ⟨1, ![512]⟩
abbrev S1x512 : Shape := ⟨2, ![1, 512]⟩
abbrev S1726x512 : Shape := ⟨2, ![1726, 512]⟩
abbrev S_ : Shape := ⟨0, ![]⟩
abbrev S32x8192x1 : Shape := ⟨3, ![32, 8192, 1]⟩
abbrev S1 : Shape := ⟨1, ![1]⟩
abbrev S1x1x1 : Shape := ⟨3, ![1, 1, 1]⟩
abbrev S32x8192x512 : Shape := ⟨3, ![32, 8192, 512]⟩

abbrev nBuf : Space → Nat
  | .hbm => 61
  | .vmem => 0
  | .smem => 0
  | _ => 0

abbrev bufTy : (tb : Table) → Fin (tcTables nBuf tb) → BufTy
  | .hbm, ⟨0, _⟩ => ⟨S32x8192, .i32⟩
  | .hbm, ⟨1, _⟩ => ⟨S1725, .i32⟩
  | .hbm, ⟨2, _⟩ => ⟨S3x512, .f32⟩
  | .hbm, ⟨3, _⟩ => ⟨S9x512, .f32⟩
  | .hbm, ⟨4, _⟩ => ⟨S512x512, .f32⟩
  | .hbm, ⟨5, _⟩ => ⟨S128x512, .f32⟩
  | .hbm, ⟨6, _⟩ => ⟨S32x512, .f32⟩
  | .hbm, ⟨7, _⟩ => ⟨S129x512, .f32⟩
  | .hbm, ⟨8, _⟩ => ⟨S16x512, .f32⟩
  | .hbm, ⟨9, _⟩ => ⟨S128x512, .f32⟩
  | .hbm, ⟨10, _⟩ => ⟨S128x512, .f32⟩
  | .hbm, ⟨11, _⟩ => ⟨S128x512, .f32⟩
  | .hbm, ⟨12, _⟩ => ⟨S512x512, .f32⟩
  | .hbm, ⟨13, _⟩ => ⟨S512, .f32⟩
  | .hbm, ⟨14, _⟩ => ⟨S1x512, .f32⟩
  | .hbm, ⟨15, _⟩ => ⟨S1726x512, .f32⟩
  | .hbm, ⟨16, _⟩ => ⟨S_, .i32⟩
  | .hbm, ⟨17, _⟩ => ⟨S32x8192, .i32⟩
  | .hbm, ⟨18, _⟩ => ⟨S32x8192, .i1⟩
  | .hbm, ⟨19, _⟩ => ⟨S_, .i32⟩
  | .hbm, ⟨20, _⟩ => ⟨S32x8192, .i32⟩
  | .hbm, ⟨21, _⟩ => ⟨S32x8192, .i32⟩
  | .hbm, ⟨22, _⟩ => ⟨S32x8192, .i32⟩
  | .hbm, ⟨23, _⟩ => ⟨S32x8192x1, .i32⟩
  | .hbm, ⟨24, _⟩ => ⟨S1, .i32⟩
  | .hbm, ⟨25, _⟩ => ⟨S_, .i32⟩
  | .hbm, ⟨26, _⟩ => ⟨S32x8192x1, .i32⟩
  | .hbm, ⟨27, _⟩ => ⟨S32x8192x1, .i1⟩
  | .hbm, ⟨28, _⟩ => ⟨S1x1x1, .i32⟩
  | .hbm, ⟨29, _⟩ => ⟨S32x8192x1, .i32⟩
  | .hbm, ⟨30, _⟩ => ⟨S32x8192x1, .i1⟩
  | .hbm, ⟨31, _⟩ => ⟨S32x8192x1, .i1⟩
  | .hbm, ⟨32, _⟩ => ⟨S_, .i1⟩
  | .hbm, ⟨33, _⟩ => ⟨S32x8192, .i1⟩
  | .hbm, ⟨34, _⟩ => ⟨S32x8192, .i32⟩
  | .hbm, ⟨35, _⟩ => ⟨S_, .i32⟩
  | .hbm, ⟨36, _⟩ => ⟨S32x8192, .i32⟩
  | .hbm, ⟨37, _⟩ => ⟨S32x8192, .i32⟩
  | .hbm, ⟨38, _⟩ => ⟨S_, .i32⟩
  | .hbm, ⟨39, _⟩ => ⟨S32x8192, .i32⟩
  | .hbm, ⟨40, _⟩ => ⟨S32x8192, .i1⟩
  | .hbm, ⟨41, _⟩ => ⟨S_, .i32⟩
  | .hbm, ⟨42, _⟩ => ⟨S32x8192, .i32⟩
  | .hbm, ⟨43, _⟩ => ⟨S32x8192, .i32⟩
  | .hbm, ⟨44, _⟩ => ⟨S32x8192, .i32⟩
  | .hbm, ⟨45, _⟩ => ⟨S32x8192x1, .i32⟩
  | .hbm, ⟨46, _⟩ => ⟨S1, .i32⟩
  | .hbm, ⟨47, _⟩ => ⟨S_, .i32⟩
  | .hbm, ⟨48, _⟩ => ⟨S32x8192x1, .i32⟩
  | .hbm, ⟨49, _⟩ => ⟨S32x8192x1, .i1⟩
  | .hbm, ⟨50, _⟩ => ⟨S1x1x1, .i32⟩
  | .hbm, ⟨51, _⟩ => ⟨S32x8192x1, .i32⟩
  | .hbm, ⟨52, _⟩ => ⟨S32x8192x1, .i1⟩
  | .hbm, ⟨53, _⟩ => ⟨S32x8192x1, .i1⟩
  | .hbm, ⟨54, _⟩ => ⟨S_, .i1⟩
  | .hbm, ⟨55, _⟩ => ⟨S32x8192, .i1⟩
  | .hbm, ⟨56, _⟩ => ⟨S32x8192x512, .f32⟩
  | .hbm, ⟨57, _⟩ => ⟨S32x8192x512, .i1⟩
  | .hbm, ⟨58, _⟩ => ⟨S_, .f32⟩
  | .hbm, ⟨59, _⟩ => ⟨S32x8192x512, .f32⟩
  | .hbm, ⟨60, _⟩ => ⟨S32x8192x512, .f32⟩
  | _, _ => ⟨S32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_c_4 : Ref sig .tc := ⟨.hbm, 35, rfl⟩
abbrev main_call0_v14 : Ref sig .tc := ⟨.hbm, 36, rfl⟩
abbrev main_v2 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v3 : Ref sig .tc := ⟨.hbm, 60, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  concatenates_S3x512_S9x512_S512x512_S128x512_S32x512_S129x512_S16x512_S128x512_S128x512_S128x512_S512x512_S1x512_S1726x512_d0 : Shape.Concatenates [S3x512, S9x512, S512x512, S128x512, S32x512, S129x512, S16x512, S128x512, S128x512, S128x512, S512x512, S1x512] S1726x512 0
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  h_S_ : 0 < S_.numel
  bcast_S32x8192_S32x8192x512_0_1 : S32x8192.BroadcastsInDim S32x8192x512 (![0, 1] : Fin 2 → Fin S32x8192x512.rank)
  bcast_S_S32x8192x512 : S_.BroadcastsInDim S32x8192x512 (![] : Fin 0 → Fin S32x8192x512.rank)
  gather_S1725_S32x8192x1_S32x8192_n_0_n_n_0_2_1_wf : GatherDims.WF S1725 S32x8192x1 S32x8192 [] [0] [] [0] [] 2 ![1]
  gather_S1726x512_S32x8192x1_S32x8192x512_2_0_n_n_0_2_1512_wf : GatherDims.WF S1726x512 S32x8192x1 S32x8192x512 [2] [0] [] [0] [] 2 ![1, 512]

variable [Facts₀]

def gather_S1725_S32x8192x1_S32x8192_n_0_n_n_0_2_1 : GatherDims S1725 S32x8192x1 S32x8192 where
  offsetDims := []
  collapsedSliceDims := [0]
  operandBatchingDims := []
  startIndicesBatchingDims := []
  startIndexMap := [0]
  indexVectorDim := 2
  sliceSizes := ![1]
  wf := gather_S1725_S32x8192x1_S32x8192_n_0_n_n_0_2_1_wf
def gather_S1726x512_S32x8192x1_S32x8192x512_2_0_n_n_0_2_1512 : GatherDims S1726x512 S32x8192x1 S32x8192x512 where
  offsetDims := [2]
  collapsedSliceDims := [0]
  operandBatchingDims := []
  startIndicesBatchingDims := []
  startIndexMap := [0]
  indexVectorDim := 2
  sliceSizes := ![1, 512]
  wf := gather_S1726x512_S32x8192x1_S32x8192x512_2_0_n_n_0_2_1512_wf

class Facts : Prop extends Facts₀ where

variable [Facts]
-- ==== Proof.Spec.lean ====
/-
  What both programs compute. A token's id is looked up in the flat map, the word found there is a row number of
  the fused embedding table, and the result at (b, s, d) is entry d of that row. The specification is stated over
  the row-number array itself: both programs compute it by the same host operations.
-/
import Idealize.ShloMosaic.PureOps.Ideal
import Idealize.ShloMosaic.Lib.ValueIdx

noncomputable section

namespace Cert.Fused

open Idealize.ShloMosaic Idealize.ShloMosaic.ValueIdx

/-- Every token id indexes the flat map (extent 1725), and every flat-map entry is a row of the fused table
    (extent 1726): the two integer inputs as unsigned words. -/
def InRange (ids : IVec ⟨2, ![32, 8192]⟩ 32) (fm : IVec ⟨1, ![1725]⟩ 32) : Prop :=
  (∀ i, (ids i).toNat < 1725) ∧ (∀ j, (fm j).toNat < 1726)

/-- Every entry of a float array is a real number (neither infinity). -/
def AllReal {s : Shape} (x : FVec Ideal s .f32) : Prop := ∀ i, ∃ r : ℝ, x i = (r : EReal)

/-- Every row number is a row of the fused table. -/
def RowsOk (idx : IVec ⟨2, ![32, 8192]⟩ 32) : Prop := ∀ i, (idx i).toNat < 1726

/-- The row of the table selected for token (b, s). The remainder only makes the term total: on row numbers
    below 1726 it is the identity. -/
def rowAt (idx : IVec ⟨2, ![32, 8192]⟩ 32) (b : Fin 32) (s : Fin 8192) : Fin 1726 :=
  ⟨(idx (ix2 b s)).toNat % 1726, Nat.mod_lt _ (by norm_num)⟩

/-- The embedding: entry (b, s, d) of the result is entry d of token (b, s)'s row of the table. -/
def G (idx : IVec ⟨2, ![32, 8192]⟩ 32) (tab : FVec Ideal ⟨2, ![1726, 512]⟩ .f32) : FVec Ideal ⟨3, ![32, 8192, 512]⟩ .f32 :=
  fun i => tab (ix2 (rowAt idx (i 0) (i 1)) (i 2))

theorem G_apply (idx : IVec ⟨2, ![32, 8192]⟩ 32) (tab : FVec Ideal ⟨2, ![1726, 512]⟩ .f32) (b : Fin 32) (s : Fin 8192) (d : Fin 512) :
    G idx tab (ix3 b s d) = tab (ix2 (rowAt idx b s) d) := rfl

end Cert.Fused

end
-- ==== Proof.KTerm.lean ====
/-
  The kernel program's pure terms: the fused table and the row numbers as its host operations compute them, the
  region-entry contents of its buffers, and what the body stores into the output block as one function of its
  three input blocks (the token column, the table's high part, the table's low part).
-/
import proofs.«401078_j56676388438136_3_alg».proof.Proof.Gen.KernelIdeal.Skeleton
import proofs.«401078_j56676388438136_3_alg».proof.Proof.Gen.KernelIdeal.Launch
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F]

/-- The fused table: the eleven per-type tables stacked along the row axis, the unknown-token row last. -/
def table (a2 : Vec F S3x512 .f32) (a3 : Vec F S9x512 .f32) (a4 : Vec F S512x512 .f32) (a5 : Vec F S128x512 .f32)
    (a6 : Vec F S32x512 .f32) (a7 : Vec F S129x512 .f32) (a8 : Vec F S16x512 .f32) (a9 : Vec F S128x512 .f32)
    (a10 : Vec F S128x512 .f32) (a11 : Vec F S128x512 .f32) (a12 : Vec F S512x512 .f32) (a13 : Vec F S512 .f32) : Vec F S1726x512 .f32 :=
  concatenate S1726x512 0 [⟨S3x512, a2⟩, ⟨S9x512, a3⟩, ⟨S512x512, a4⟩, ⟨S128x512, a5⟩, ⟨S32x512, a6⟩, ⟨S129x512, a7⟩, ⟨S16x512, a8⟩, ⟨S128x512, a9⟩, ⟨S128x512, a10⟩, ⟨S128x512, a11⟩, ⟨S512x512, a12⟩, ⟨S1x512, broadcastInDim S1x512 ![1] bcast_S512_S1x512_1 a13⟩] concatenates_S3x512_S9x512_S512x512_S128x512_S32x512_S129x512_S16x512_S128x512_S128x512_S128x512_S512x512_S1x512_S1726x512_d0

/-- The row numbers: the flat map taken at the token ids (a negative id wrapped once, an id outside the map
    answered by the smallest integer). -/
def takeRow (fm : IVec S1725 32) (ids : IVec S32x8192 32) : IVec S32x8192 32 :=
  let v1 : IVec S32x8192 1 := cmpi .slt ids (broadcastInDim S32x8192 ![] bcast_S_S32x8192 (constantI S_ 32 0#32))
  let v3 : IVec S32x8192 32 := addi ids (broadcastInDim S32x8192 ![] bcast_S_S32x8192 (constantI S_ 32 1725#32))
  let v4 : IVec S32x8192 32 := select v1 v3 ids
  let v5 : IVec S32x8192x1 32 := broadcastInDim S32x8192x1 ![0, 1] bcast_S32x8192_S32x8192x1_0_1 v4
  let v7 : IVec S32x8192x1 1 := cmpi .sge v5 (broadcastInDim S32x8192x1 ![] bcast_S_S32x8192x1 (constantI S_ 32 0#32))
  let v9 : IVec S32x8192x1 32 := broadcastInDim S32x8192x1 ![0, 1, 2] bcast_S1x1x1_S32x8192x1_0_1_2 (broadcastInDim S1x1x1 ![2] bcast_S1_S1x1x1_2 (constantI S1 32 1724#32))
  let v10 : IVec S32x8192x1 1 := cmpi .sle v5 v9
  let v11 : IVec S32x8192x1 1 := andi v7 v10
  let v12 : IVec S32x8192 1 := Host.reduce IntOp.andi v11 (constantI S_ 1 1#1) reducesTo_S32x8192x1_S32x8192_d2 h_S_
  let v13 : IVec S32x8192 32 := Host.gather gather_S1725_S32x8192x1_S32x8192_n_0_n_n_0_2_1 fm v5
  select v12 v13 (broadcastInDim S32x8192 ![] bcast_S_S32x8192 (constantI S_ 32 2147483648#32))

variable (m : (ℓ : Loc nD τ sig) → Buf (Elt F) ℓ)

/-- Core c's TensorCore buffer contents when the region is entered: after the seven stretches of host operations
    before it. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- Rows 256·k … 256·k + 255 of a table block, all 512 columns: the k-th vocabulary chunk. -/
abbrev chunk0 : Rect S1792x512 := Rect.unit (s := S1792x512) (k0_off1 0#32) S256x512.size (k0_off1_inb 0)
abbrev chunk1 : Rect S1792x512 := Rect.unit (s := S1792x512) (k0_off1 1#32) S256x512.size (k0_off1_inb 1)
abbrev chunk2 : Rect S1792x512 := Rect.unit (s := S1792x512) (k0_off1 2#32) S256x512.size (k0_off1_inb 2)
abbrev chunk3 : Rect S1792x512 := Rect.unit (s := S1792x512) (k0_off1 3#32) S256x512.size (k0_off1_inb 3)
abbrev chunk4 : Rect S1792x512 := Rect.unit (s := S1792x512) (k0_off1 4#32) S256x512.size (k0_off1_inb 4)
abbrev chunk5 : Rect S1792x512 := Rect.unit (s := S1792x512) (k0_off1 5#32) S256x512.size (k0_off1_inb 5)
abbrev chunk6 : Rect S1792x512 := Rect.unit (s := S1792x512) (k0_off1 6#32) S256x512.size (k0_off1_inb 6)

/-- What the body stores into the output block, from the token column x0 and the two table blocks x1 (high part)
    and x2 (low part): the seven chunks' one-hot products, accumulated from zero. -/
def bodyOut (x0 : Vec F S1024x1 .i32) (x1 x2 : Vec F S1792x512 .bf16) : FVec F S1024x512 .f32 :=
  let v1 : IVec S1024x1 32 := k0_pay2 x0
  let v42 : FVec F S1024x512 .f32 := k0_pay3 x0 (View.ld x1 chunk0) (View.ld x2 chunk0) (View.ld x1 chunk1) (View.ld x2 chunk1)
  let v82 : FVec F S1024x512 .f32 := k0_pay4 v1 v42 2#32 (View.ld x1 chunk2) (View.ld x2 chunk2) (View.ld x1 chunk3) (View.ld x2 chunk3)
  let v122 : FVec F S1024x512 .f32 := k0_pay6 v1 v82 (Scalar.muli 4#32 256#32) (k0_pay5 (View.ld x1 chunk4)) (View.ld x2 chunk4) (View.ld x1 chunk5) (View.ld x2 chunk5)
  k0_pay1 v122 (k0_pay7 (View.ld x1 chunk6)) (k0_pay8 (View.ld x2 chunk6)) (k0_pay9 v1)

end Cert.KernelIdeal.Hand

end
-- ==== Proof.RTerm.lean ====
/-
  The reference program's pure terms: the fused table, the row numbers, and the rows gathered from the table
  (a negative row number wrapped once, a row number outside the table answered by the fill value).
-/
import proofs.«401078_j56676388438136_3_alg».proof.Proof.Gen.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]

/-- The fused table: the eleven per-type tables stacked along the row axis, the unknown-token row last. -/
def table (a2 : Vec F S3x512 .f32) (a3 : Vec F S9x512 .f32) (a4 : Vec F S512x512 .f32) (a5 : Vec F S128x512 .f32)
    (a6 : Vec F S32x512 .f32) (a7 : Vec F S129x512 .f32) (a8 : Vec F S16x512 .f32) (a9 : Vec F S128x512 .f32)
    (a10 : Vec F S128x512 .f32) (a11 : Vec F S128x512 .f32) (a12 : Vec F S512x512 .f32) (a13 : Vec F S512 .f32) : Vec F S1726x512 .f32 :=
  concatenate S1726x512 0 [⟨S3x512, a2⟩, ⟨S9x512, a3⟩, ⟨S512x512, a4⟩, ⟨S128x512, a5⟩, ⟨S32x512, a6⟩, ⟨S129x512, a7⟩, ⟨S16x512, a8⟩, ⟨S128x512, a9⟩, ⟨S128x512, a10⟩, ⟨S128x512, a11⟩, ⟨S512x512, a12⟩, ⟨S1x512, broadcastInDim S1x512 ![1] bcast_S512_S1x512_1 a13⟩] concatenates_S3x512_S9x512_S512x512_S128x512_S32x512_S129x512_S16x512_S128x512_S128x512_S128x512_S512x512_S1x512_S1726x512_d0

/-- The row numbers: the flat map taken at the token ids (a negative id wrapped once, an id outside the map
    answered by the smallest integer). -/
def takeRow (fm : IVec S1725 32) (ids : IVec S32x8192 32) : IVec S32x8192 32 :=
  let v1 : IVec S32x8192 1 := cmpi .slt ids (broadcastInDim S32x8192 ![] bcast_S_S32x8192 (constantI S_ 32 0#32))
  let v3 : IVec S32x8192 32 := addi ids (broadcastInDim S32x8192 ![] bcast_S_S32x8192 (constantI S_ 32 1725#32))
  let v4 : IVec S32x8192 32 := select v1 v3 ids
  let v5 : IVec S32x8192x1 32 := broadcastInDim S32x8192x1 ![0, 1] bcast_S32x8192_S32x8192x1_0_1 v4
  let v7 : IVec S32x8192x1 1 := cmpi .sge v5 (broadcastInDim S32x8192x1 ![] bcast_S_S32x8192x1 (constantI S_ 32 0#32))
  let v9 : IVec S32x8192x1 32 := broadcastInDim S32x8192x1 ![0, 1, 2] bcast_S1x1x1_S32x8192x1_0_1_2 (broadcastInDim S1x1x1 ![2] bcast_S1_S1x1x1_2 (constantI S1 32 1724#32))
  let v10 : IVec S32x8192x1 1 := cmpi .sle v5 v9
  let v11 : IVec S32x8192x1 1 := andi v7 v10
  let v12 : IVec S32x8192 1 := Host.reduce IntOp.andi v11 (constantI S_ 1 1#1) reducesTo_S32x8192x1_S32x8192_d2 h_S_
  let v13 : IVec S32x8192 32 := Host.gather gather_S1725_S32x8192x1_S32x8192_n_0_n_n_0_2_1 fm v5
  select v12 v13 (broadcastInDim S32x8192 ![] bcast_S_S32x8192 (constantI S_ 32 2147483648#32))

/-- The rows of the table at the row numbers: a negative row number wrapped once, a row number outside the table
    answered by the fill value. -/
def gatherRows (tab : Vec F S1726x512 .f32) (idx : IVec S32x8192 32) : Vec F S32x8192x512 .f32 :=
  let v1 : IVec S32x8192 1 := cmpi .slt idx (broadcastInDim S32x8192 ![] bcast_S_S32x8192 (constantI S_ 32 0#32))
  let v3 : IVec S32x8192 32 := addi idx (broadcastInDim S32x8192 ![] bcast_S_S32x8192 (constantI S_ 32 1726#32))
  let v4 : IVec S32x8192 32 := select v1 v3 idx
  let v5 : IVec S32x8192x1 32 := broadcastInDim S32x8192x1 ![0, 1] bcast_S32x8192_S32x8192x1_0_1 v4
  let v7 : IVec S32x8192x1 1 := cmpi .sge v5 (broadcastInDim S32x8192x1 ![] bcast_S_S32x8192x1 (constantI S_ 32 0#32))
  let v9 : IVec S32x8192x1 32 := broadcastInDim S32x8192x1 ![0, 1, 2] bcast_S1x1x1_S32x8192x1_0_1_2 (broadcastInDim S1x1x1 ![2] bcast_S1_S1x1x1_2 (constantI S1 32 1725#32))
  let v10 : IVec S32x8192x1 1 := cmpi .sle v5 v9
  let v11 : IVec S32x8192x1 1 := andi v7 v10
  let v12 : IVec S32x8192 1 := Host.reduce IntOp.andi v11 (constantI S_ 1 1#1) reducesTo_S32x8192x1_S32x8192_d2 h_S_
  let v13 : Vec F S32x8192x512 .f32 := Host.gather gather_S1726x512_S32x8192x1_S32x8192x512_2_0_n_n_0_2_1512 tab v5
  let v14 : IVec S32x8192x512 1 := broadcastInDim S32x8192x512 ![0, 1] bcast_S32x8192_S32x8192x512_0_1 v12
  select v14 v13 (broadcastInDim S32x8192x512 ![] bcast_S_S32x8192x512 (constant S_ .f32 0x7FC00000#32))

/-- The reference's result as one term of its fourteen argument arrays. -/
def refOut (a0 : IVec S32x8192 32) (a1 : IVec S1725 32) (a2 : Vec F S3x512 .f32) (a3 : Vec F S9x512 .f32) (a4 : Vec F S512x512 .f32) (a5 : Vec F S128x512 .f32)
    (a6 : Vec F S32x512 .f32) (a7 : Vec F S129x512 .f32) (a8 : Vec F S16x512 .f32) (a9 : Vec F S128x512 .f32)
    (a10 : Vec F S128x512 .f32) (a11 : Vec F S128x512 .f32) (a12 : Vec F S512x512 .f32) (a13 : Vec F S512 .f32) : Vec F S32x8192x512 .f32 :=
  gatherRows (table a2 a3 a4 a5 a6 a7 a8 a9 a10 a11 a12 a13) (takeRow a1 a0)

end Cert.ReferenceIdeal.Hand

end
-- ==== Proof.Bridge.lean ====
/-
  The two programs build the same fused table and the same row numbers: their host operations up to that point are
  the same text, so the terms are equal by unfolding.
-/
import proofs.«401078_j56676388438136_3_alg».proof.Proof.KTerm
import proofs.«401078_j56676388438136_3_alg».proof.Proof.RTerm

noncomputable section

namespace Cert.Bridge

open Idealize.ShloMosaic

variable {F : FTy → Type} [FloatOps F]

/-- The kernel program's fused table is the reference's. -/
theorem table_eq (a2 : Vec F Cert.KernelIdeal.S3x512 .f32) (a3 : Vec F Cert.KernelIdeal.S9x512 .f32) (a4 : Vec F Cert.KernelIdeal.S512x512 .f32) (a5 : Vec F Cert.KernelIdeal.S128x512 .f32)
    (a6 : Vec F Cert.KernelIdeal.S32x512 .f32) (a7 : Vec F Cert.KernelIdeal.S129x512 .f32) (a8 : Vec F Cert.KernelIdeal.S16x512 .f32) (a9 : Vec F Cert.KernelIdeal.S128x512 .f32)
    (a10 : Vec F Cert.KernelIdeal.S128x512 .f32) (a11 : Vec F Cert.KernelIdeal.S128x512 .f32) (a12 : Vec F Cert.KernelIdeal.S512x512 .f32) (a13 : Vec F Cert.KernelIdeal.S512 .f32) :
    Cert.KernelIdeal.Hand.table a2 a3 a4 a5 a6 a7 a8 a9 a10 a11 a12 a13 = Cert.ReferenceIdeal.Hand.table a2 a3 a4 a5 a6 a7 a8 a9 a10 a11 a12 a13 := rfl

/-- The kernel program's row numbers are the reference's. -/
theorem takeRow_eq (fm : IVec Cert.KernelIdeal.S1725 32) (ids : IVec Cert.KernelIdeal.S32x8192 32) :
    Cert.KernelIdeal.Hand.takeRow fm ids = Cert.ReferenceIdeal.Hand.takeRow fm ids := rfl

end Cert.Bridge

end
-- ==== Proof.KFrameDefs.lean ====
/-
  The kernel program around its one region.

  The program is seven stretches of host operations (the fused table stacked, padded to 1792 rows and split into a
  high and a low part; the row numbers taken from the flat map, clipped and laid out as one column), then one
  region on a grid of 256 points, then one more host operation (the result laid out as 32 × 8192 × 512). The
  region has four windows: window 0 is a block of 1024 row numbers (a new block at every point), windows 1 and 2
  are the whole high and the whole low table (the same block at every point), window 3 is a block of 1024 result
  rows (written back at every point).

  This module says: no host operation writes an argument array, so each argument is found by the region, and left
  by the operation after it, as launched; a window's block at a point, read off its array as the region finds it;
  that each input window's buffer holds its block at every point, whether or not the block was brought in there;
  what the body leaves in the output window's buffer (the one piece it stores, over the whole block); and the
  description of the region point by point built from these.
-/
import proofs.«401078_j56676388438136_3_alg».proof.Proof.KTerm
import proofs.«401078_j56676388438136_3_alg».proof.Proof.Gen.KernelIdeal.Points
import proofs.«401078_j56676388438136_3_alg».proof.Proof.Gen.KernelIdeal.Launch
import proofs.«401078_j56676388438136_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of 1024 × 512 entries is looked at once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor

/-- The program is the seven stretches, the region, and the last operation, in that order; so at any variants it
    reduces to the region entered at the contents `V` and continued by the last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operation after the region touches only buffers that outlive the region and are no staging buffer: the
    windows' arrays and the buffers that pass the region by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no window's array: its one result buffer is the re-laid result, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written

Each host operation writes its own result buffer only, and no result buffer is an argument's. So an argument's
buffer is found by the region as launched (`V_main_argK`), and is still so after the operation that follows the
region, which starts from the region's final contents of the windows' arrays, none of them an argument
(`W_main_argK`). -/

/-- Among the written buffers of all seven stretches, listed one by one, the given buffer does not occur. -/
local macro "no_stretch_writes" : tactic => `(tactic| (
  simp only [hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- The same for the one operation after the region. -/
local macro "no_tail_writes" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by no_stretch_writes))
theorem V_main_arg1 (c : Dev nD) : V m c main_arg1 = m ((c : Thread nD τ).loc main_arg1) :=
  StableHlo.after_of_forall_not_mem (b := Proc.devRef .tc main_arg1) _ _ (List.forall_iff_forall_mem.mp (by no_stretch_writes))
theorem V_main_arg2 (c : Dev nD) : V m c main_arg2 = m ((c : Thread nD τ).loc main_arg2) :=
  StableHlo.after_of_forall_not_mem (b := Proc.devRef .tc main_arg2) _ _ (List.forall_iff_forall_mem.mp (by no_stretch_writes))
theorem V_main_arg3 (c : Dev nD) : V m c main_arg3 = m ((c : Thread nD τ).loc main_arg3) :=
  StableHlo.after_of_forall_not_mem (b := Proc.devRef .tc main_arg3) _ _ (List.forall_iff_forall_mem.mp (by no_stretch_writes))
theorem V_main_arg4 (c : Dev nD) : V m c main_arg4 = m ((c : Thread nD τ).loc main_arg4) :=
  StableHlo.after_of_forall_not_mem (b := Proc.devRef .tc main_arg4) _ _ (List.forall_iff_forall_mem.mp (by no_stretch_writes))
theorem V_main_arg5 (c : Dev nD) : V m c main_arg5 = m ((c : Thread nD τ).loc main_arg5) :=
  StableHlo.after_of_forall_not_mem (b := Proc.devRef .tc main_arg5) _ _ (List.forall_iff_forall_mem.mp (by no_stretch_writes))
theorem V_main_arg6 (c : Dev nD) : V m c main_arg6 = m ((c : Thread nD τ).loc main_arg6) :=
  StableHlo.after_of_forall_not_mem (b := Proc.devRef .tc main_arg6) _ _ (List.forall_iff_forall_mem.mp (by no_stretch_writes))
theorem V_main_arg7 (c : Dev nD) : V m c main_arg7 = m ((c : Thread nD τ).loc main_arg7) :=
  StableHlo.after_of_forall_not_mem (b := Proc.devRef .tc main_arg7) _ _ (List.forall_iff_forall_mem.mp (by no_stretch_writes))
theorem V_main_arg8 (c : Dev nD) : V m c main_arg8 = m ((c : Thread nD τ).loc main_arg8) :=
  StableHlo.after_of_forall_not_mem (b := Proc.devRef .tc main_arg8) _ _ (List.forall_iff_forall_mem.mp (by no_stretch_writes))
theorem V_main_arg9 (c : Dev nD) : V m c main_arg9 = m ((c : Thread nD τ).loc main_arg9) :=
  StableHlo.after_of_forall_not_mem (b := Proc.devRef .tc main_arg9) _ _ (List.forall_iff_forall_mem.mp (by no_stretch_writes))
theorem V_main_arg10 (c : Dev nD) : V m c main_arg10 = m ((c : Thread nD τ).loc main_arg10) :=
  StableHlo.after_of_forall_not_mem (b := Proc.devRef .tc main_arg10) _ _ (List.forall_iff_forall_mem.mp (by no_stretch_writes))
theorem V_main_arg11 (c : Dev nD) : V m c main_arg11 = m ((c : Thread nD τ).loc main_arg11) :=
  StableHlo.after_of_forall_not_mem (b := Proc.devRef .tc main_arg11) _ _ (List.forall_iff_forall_mem.mp (by no_stretch_writes))
theorem V_main_arg12 (c : Dev nD) : V m c main_arg12 = m ((c : Thread nD τ).loc main_arg12) :=
  StableHlo.after_of_forall_not_mem (b := Proc.devRef .tc main_arg12) _ _ (List.forall_iff_forall_mem.mp (by no_stretch_writes))
theorem V_main_arg13 (c : Dev nD) : V m c main_arg13 = m ((c : Thread nD τ).loc main_arg13) :=
  StableHlo.after_of_forall_not_mem (b := Proc.devRef .tc main_arg13) _ _ (List.forall_iff_forall_mem.mp (by no_stretch_writes))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_tail_writes)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_tail_writes)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by no_tail_writes)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by no_tail_writes)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by no_tail_writes)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by no_tail_writes)),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by no_tail_writes)),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by no_tail_writes)),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by no_tail_writes)),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by no_tail_writes)),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by no_tail_writes)),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by no_tail_writes)),
    Pipeline.withArrays_of_ne _ c (V0 m c) _ main_arg11 (by exact (by decide : ∀ w, Pipeline.arrRef spec0 w ≠ main_arg11))]
  exact V_main_arg11 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by no_tail_writes)),
    Pipeline.withArrays_of_ne _ c (V0 m c) _ main_arg12 (by exact (by decide : ∀ w, Pipeline.arrRef spec0 w ≠ main_arg12))]
  exact V_main_arg12 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by no_tail_writes)),
    Pipeline.withArrays_of_ne _ c (V0 m c) _ main_arg13 (by exact (by decide : ∀ w, Pipeline.arrRef spec0 w ≠ main_arg13))]
  exact V_main_arg13 m c

/-! ## The windows' blocks -/

/-- Window `w`'s block at point `t`, read off its array as the region finds it: for window 0 rows
    1024·t … 1024·t + 1023 of the column of row numbers, for windows 1 and 2 the whole high and low table, for
    window 3 the same rows of the result array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point (a new block is brought in at every point), for any description of the region whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point (the block is brought in at the first point only; at a later point the block's position has not moved, so the buffer still holds it), for any description of the region whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point (the block is brought in at the first point only; at a later point the block's position has not moved, so the buffer still holds it), for any description of the region whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From a run of the region's description to the arguments unchanged -/

/-- If the program runs to a state in which every window's array is what the description computes and every other
    lasting buffer is as the last operation leaves it, then it runs to a state in which the fourteen argument arrays
    are as launched: none of them is a window's array, and neither the stretches nor the last operation write one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c)⟩) h

/-! ## What the body leaves in the output window's buffer -/

/-- The whole output block: the one rectangle the body stores through. -/
abbrev rOut : Rect S1024x512 := Rect.unit (s := S1024x512) ![0, 0] S1024x512.size inb_S1024x512_S1024x512_0_0

/-- Window 3's buffer after the body, from the three input blocks: one piece, the accumulated sum of the seven
    chunks' one-hot products, laid over the whole block. -/
def out0_3 (x0 : Vec F S1024x1 .i32) (x1 x2 : Vec F S1792x512 .bf16) : Vec F S1024x512 .f32 :=
  View.canon [⟨rOut, bodyOut x0 x1 x2⟩]

/-- That piece covers the block: it is the block. -/
theorem cover0_3 (p0 : Vec F S1024x512 .f32) (y : S1024x512.Idx) :
    ∃ pc ∈ ([⟨rOut, p0⟩] : List (View.Piece (Elt F) S1024x512 .f32)), y ∈ pc.1.set :=
  View.cover_of_tiled [⟨rOut, p0⟩] S1024x512.size (by rfl) y

/-! ## The region, point by point -/

/-- The description of the region on core `c`: the windows' arrays as the region finds them; after the body at
    point `t` each input's buffer at its block and the output's at `out0_3` of the three input blocks; the
    invariant is the untouched rest (the scoped buffers that are no staging buffer, and the generator's register);
    nothing is owed to another core; every buffer is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The description's arrays are the region-entry contents (a projection of the definition: the contents, a fold
    over forty-one operations, are not opened to see it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input window's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Hand

end
-- ==== Proof.KFrame.lean ====
/-
  The run of the kernel program, and its argument arrays unchanged.

  The body of the region, called on the four windows' buffers — the three inputs' holding a block of row numbers,
  the high table and the low table, the output's holding anything — reads the row numbers once and the two tables
  chunk by chunk (seven chunks of 256 rows each), reads the output block once without using what it read, and stores
  one value over the whole output block: the accumulated sum of the seven chunks' one-hot products. It leaves the
  inputs' buffers as they were and the output's at that value. With each input's buffer holding its block at every
  point, this is the region's obligation at every point; so the program runs to a state in which the result array
  is what the 256 write-backs leave and every other lasting buffer is as the last host operation leaves it; and,
  the fourteen argument arrays being written by nothing, they end as launched.
-/
import proofs.«401078_j56676388438136_3_alg».proof.Proof.KFrameDefs
import Idealize.ShloMosaic.Lib.Pipeline.Value

-- membership in a rectangle of 1024 × 512 entries is looked at once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on the windows' buffers -/

set_option maxHeartbeats 400000 in
/-- The body on four whole buffers — the inputs' reading `x0`, `x1`, `x2`, the output's holding anything — runs to
    its continuation with the inputs' buffers as they were and the output's reading `out0_3 x0 x1 x2`: its fifteen
    live reads are of the inputs through fixed rectangles, and its one store covers the output block. The value
    stored is `bodyOut x0 x1 x2`: the body reads the row numbers through the rectangle that is their whole block,
    which reads the block itself; the table chunks it reads are rows 256·k … 256·k + 255, and the offset 4 · 256 it
    passes on is the word 1024. -/
theorem sound_kernel (c : Dev nD) (E : Set ℕ) (i : grid0.Coords)
    (arg1 : Memref sig .tc .vmem S1024x1 .i32) (harg1 : arg1.IsWhole) (arg2 : Memref sig .tc .vmem S1792x512 .bf16) (harg2 : arg2.IsWhole)
    (arg3 : Memref sig .tc .vmem S1792x512 .bf16) (harg3 : arg3.IsWhole) (arg4 : Memref sig .tc .vmem S1024x512 .f32) (harg4 : arg4.IsWhole)
    (x0 : Vec F S1024x1 .i32) (x1 x2 : Vec F S1792x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embedding_gather_kernel i arg1 harg1 arg2 harg2 arg3 harg3 arg4 harg4) K := by
  simp only [cc0__embedding_gather_kernel_eq_skeleton]; unfold cc0__embedding_gather_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _)]
  unfold out0_3 bodyOut
  sl_unfold_run_names
  have hz : (![0, 0] : Fin S1024x1.rank → Nat) = fun _ => 0 := by funext a; fin_cases a <;> rfl
  have hids : View.readAt (Elt F) arg1.view (Rect.unit (s := S1024x1) ![0, 0] S1024x1.size inb_S1024x1_S1024x1_0_0).toLoadRect f0
      = View.read (Elt F) arg1.view f0 :=
    (View.readAt_eq_ld arg1.view f0 _).trans (View.ld_unit_zero (S := S1024x1) hz _ _)
  rw [hids]
  rfl

/-! ## The region's obligation, at a generic point -/

/-- What the body is called with at point `t`: the invariant, what the core owes, and each window's current buffer
    at what the description says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns: the same with each buffer at what the description says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies at the three blocks; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's obligation, at every point. -/
theorem body_obligation (c : Dev nD) : BodyObligation (dats (F := F) m 0 c) (defs₀ (F := F)) Variants.none () Set.univ := fun t => by
  rw [bigSep_W0, bigSep_W0]
  exact sound_body m c t

/-! ## The run, and the arguments unchanged -/

-- the run theorem's implicit arguments are found by unifying its conclusion with this statement, which takes
-- unfolding plain definitions inside the type of an unknown
set_option backward.isDefEq.respectTransparency.types false in
/-- At the compiled mesh, for any values, from any memory with zero counters: every weakly fair execution of the
    program on the TensorCores terminates, and every final state has each window's array at what the description
    computes — the result array at the 256 written-back blocks — and every other lasting buffer as the last host
    operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (run_main m ρ)

end Cert.KernelIdeal.Hand

end
-- ==== Proof.KTermB.lean ====
/-
  The kernel program's pure terms: the fused table and the row numbers as its host operations compute them, the
  region-entry contents of its buffers, and what the body stores into the output block as one function of its
  three input blocks (the token column, the table's high part, the table's low part).
-/
import proofs.«401078_j56676388438136_3_alg».proof.Proof.Gen.Kernel.Skeleton
import proofs.«401078_j56676388438136_3_alg».proof.Proof.Gen.Kernel.Launch
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]

/-- The fused table: the eleven per-type tables stacked along the row axis, the unknown-token row last. -/
def table (a2 : Vec F S3x512 .f32) (a3 : Vec F S9x512 .f32) (a4 : Vec F S512x512 .f32) (a5 : Vec F S128x512 .f32)
    (a6 : Vec F S32x512 .f32) (a7 : Vec F S129x512 .f32) (a8 : Vec F S16x512 .f32) (a9 : Vec F S128x512 .f32)
    (a10 : Vec F S128x512 .f32) (a11 : Vec F S128x512 .f32) (a12 : Vec F S512x512 .f32) (a13 : Vec F S512 .f32) : Vec F S1726x512 .f32 :=
  concatenate S1726x512 0 [⟨S3x512, a2⟩, ⟨S9x512, a3⟩, ⟨S512x512, a4⟩, ⟨S128x512, a5⟩, ⟨S32x512, a6⟩, ⟨S129x512, a7⟩, ⟨S16x512, a8⟩, ⟨S128x512, a9⟩, ⟨S128x512, a10⟩, ⟨S128x512, a11⟩, ⟨S512x512, a12⟩, ⟨S1x512, broadcastInDim S1x512 ![1] bcast_S512_S1x512_1 a13⟩] concatenates_S3x512_S9x512_S512x512_S128x512_S32x512_S129x512_S16x512_S128x512_S128x512_S128x512_S512x512_S1x512_S1726x512_d0

/-- The row numbers: the flat map taken at the token ids (a negative id wrapped once, an id outside the map
    answered by the smallest integer). -/
def takeRow (fm : IVec S1725 32) (ids : IVec S32x8192 32) : IVec S32x8192 32 :=
  let v1 : IVec S32x8192 1 := cmpi .slt ids (broadcastInDim S32x8192 ![] bcast_S_S32x8192 (constantI S_ 32 0#32))
  let v3 : IVec S32x8192 32 := addi ids (broadcastInDim S32x8192 ![] bcast_S_S32x8192 (constantI S_ 32 1725#32))
  let v4 : IVec S32x8192 32 := select v1 v3 ids
  let v5 : IVec S32x8192x1 32 := broadcastInDim S32x8192x1 ![0, 1] bcast_S32x8192_S32x8192x1_0_1 v4
  let v7 : IVec S32x8192x1 1 := cmpi .sge v5 (broadcastInDim S32x8192x1 ![] bcast_S_S32x8192x1 (constantI S_ 32 0#32))
  let v9 : IVec S32x8192x1 32 := broadcastInDim S32x8192x1 ![0, 1, 2] bcast_S1x1x1_S32x8192x1_0_1_2 (broadcastInDim S1x1x1 ![2] bcast_S1_S1x1x1_2 (constantI S1 32 1724#32))
  let v10 : IVec S32x8192x1 1 := cmpi .sle v5 v9
  let v11 : IVec S32x8192x1 1 := andi v7 v10
  let v12 : IVec S32x8192 1 := Host.reduce IntOp.andi v11 (constantI S_ 1 1#1) reducesTo_S32x8192x1_S32x8192_d2 h_S_
  let v13 : IVec S32x8192 32 := Host.gather gather_S1725_S32x8192x1_S32x8192_n_0_n_n_0_2_1 fm v5
  select v12 v13 (broadcastInDim S32x8192 ![] bcast_S_S32x8192 (constantI S_ 32 2147483648#32))

variable (m : (ℓ : Loc nD τ sig) → Buf (Elt F) ℓ)

/-- Core c's TensorCore buffer contents when the region is entered: after the seven stretches of host operations
    before it. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- Rows 256·k … 256·k + 255 of a table block, all 512 columns: the k-th vocabulary chunk. -/
abbrev chunk0 : Rect S1792x512 := Rect.unit (s := S1792x512) (k0_off1 0#32) S256x512.size (k0_off1_inb 0)
abbrev chunk1 : Rect S1792x512 := Rect.unit (s := S1792x512) (k0_off1 1#32) S256x512.size (k0_off1_inb 1)
abbrev chunk2 : Rect S1792x512 := Rect.unit (s := S1792x512) (k0_off1 2#32) S256x512.size (k0_off1_inb 2)
abbrev chunk3 : Rect S1792x512 := Rect.unit (s := S1792x512) (k0_off1 3#32) S256x512.size (k0_off1_inb 3)
abbrev chunk4 : Rect S1792x512 := Rect.unit (s := S1792x512) (k0_off1 4#32) S256x512.size (k0_off1_inb 4)
abbrev chunk5 : Rect S1792x512 := Rect.unit (s := S1792x512) (k0_off1 5#32) S256x512.size (k0_off1_inb 5)
abbrev chunk6 : Rect S1792x512 := Rect.unit (s := S1792x512) (k0_off1 6#32) S256x512.size (k0_off1_inb 6)

/-- What the body stores into the output block, from the token column x0 and the two table blocks x1 (high part)
    and x2 (low part): the seven chunks' one-hot products, accumulated from zero. -/
def bodyOut (x0 : Vec F S1024x1 .i32) (x1 x2 : Vec F S1792x512 .bf16) : FVec F S1024x512 .f32 :=
  let v1 : IVec S1024x1 32 := k0_pay2 x0
  let v42 : FVec F S1024x512 .f32 := k0_pay3 x0 (View.ld x1 chunk0) (View.ld x2 chunk0) (View.ld x1 chunk1) (View.ld x2 chunk1)
  let v82 : FVec F S1024x512 .f32 := k0_pay4 v1 v42 2#32 (View.ld x1 chunk2) (View.ld x2 chunk2) (View.ld x1 chunk3) (View.ld x2 chunk3)
  let v122 : FVec F S1024x512 .f32 := k0_pay6 v1 v82 (Scalar.muli 4#32 256#32) (k0_pay5 (View.ld x1 chunk4)) (View.ld x2 chunk4) (View.ld x1 chunk5) (View.ld x2 chunk5)
  k0_pay1 v122 (k0_pay7 (View.ld x1 chunk6)) (k0_pay8 (View.ld x2 chunk6)) (k0_pay9 v1)

end Cert.Kernel.Hand

end
-- ==== Proof.KFrameDefsB.lean ====
/-
  The kernel program around its one region.

  The program is seven stretches of host operations (the fused table stacked, padded to 1792 rows and split into a
  high and a low part; the row numbers taken from the flat map, clipped and laid out as one column), then one
  region on a grid of 256 points, then one more host operation (the result laid out as 32 × 8192 × 512). The
  region has four windows: window 0 is a block of 1024 row numbers (a new block at every point), windows 1 and 2
  are the whole high and the whole low table (the same block at every point), window 3 is a block of 1024 result
  rows (written back at every point).

  This module says: no host operation writes an argument array, so each argument is found by the region, and left
  by the operation after it, as launched; a window's block at a point, read off its array as the region finds it;
  that each input window's buffer holds its block at every point, whether or not the block was brought in there;
  what the body leaves in the output window's buffer (the one piece it stores, over the whole block); and the
  description of the region point by point built from these.
-/
import proofs.«401078_j56676388438136_3_alg».proof.Proof.KTermB
import proofs.«401078_j56676388438136_3_alg».proof.Proof.Gen.Kernel.Points
import proofs.«401078_j56676388438136_3_alg».proof.Proof.Gen.Kernel.Launch
import proofs.«401078_j56676388438136_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of 1024 × 512 entries is looked at once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps1_fresh : (hostOps1 : List (HloOp τ sig (Elt F))).Forall fun op => op.fresh = ∅ := by
  simp only [List.Forall]; repeat' constructor

/-- The program is the seven stretches, the region, and the last operation, in that order; so at any variants it
    reduces to the region entered at the contents `V` and continued by the last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operation after the region touches only buffers that outlive the region and are no staging buffer: the
    windows' arrays and the buffers that pass the region by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no window's array: its one result buffer is the re-laid result, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written

Each host operation writes its own result buffer only, and no result buffer is an argument's. So an argument's
buffer is found by the region as launched (`V_main_argK`), and is still so after the operation that follows the
region, which starts from the region's final contents of the windows' arrays, none of them an argument
(`W_main_argK`). -/

/-- Among the written buffers of all seven stretches, listed one by one, the given buffer does not occur. -/
local macro "no_stretch_writes" : tactic => `(tactic| (
  simp only [hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- The same for the one operation after the region. -/
local macro "no_tail_writes" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by no_stretch_writes))
theorem V_main_arg1 (c : Dev nD) : V m c main_arg1 = m ((c : Thread nD τ).loc main_arg1) :=
  StableHlo.after_of_forall_not_mem (b := Proc.devRef .tc main_arg1) _ _ (List.forall_iff_forall_mem.mp (by no_stretch_writes))
theorem V_main_arg2 (c : Dev nD) : V m c main_arg2 = m ((c : Thread nD τ).loc main_arg2) :=
  StableHlo.after_of_forall_not_mem (b := Proc.devRef .tc main_arg2) _ _ (List.forall_iff_forall_mem.mp (by no_stretch_writes))
theorem V_main_arg3 (c : Dev nD) : V m c main_arg3 = m ((c : Thread nD τ).loc main_arg3) :=
  StableHlo.after_of_forall_not_mem (b := Proc.devRef .tc main_arg3) _ _ (List.forall_iff_forall_mem.mp (by no_stretch_writes))
theorem V_main_arg4 (c : Dev nD) : V m c main_arg4 = m ((c : Thread nD τ).loc main_arg4) :=
  StableHlo.after_of_forall_not_mem (b := Proc.devRef .tc main_arg4) _ _ (List.forall_iff_forall_mem.mp (by no_stretch_writes))
theorem V_main_arg5 (c : Dev nD) : V m c main_arg5 = m ((c : Thread nD τ).loc main_arg5) :=
  StableHlo.after_of_forall_not_mem (b := Proc.devRef .tc main_arg5) _ _ (List.forall_iff_forall_mem.mp (by no_stretch_writes))
theorem V_main_arg6 (c : Dev nD) : V m c main_arg6 = m ((c : Thread nD τ).loc main_arg6) :=
  StableHlo.after_of_forall_not_mem (b := Proc.devRef .tc main_arg6) _ _ (List.forall_iff_forall_mem.mp (by no_stretch_writes))
theorem V_main_arg7 (c : Dev nD) : V m c main_arg7 = m ((c : Thread nD τ).loc main_arg7) :=
  StableHlo.after_of_forall_not_mem (b := Proc.devRef .tc main_arg7) _ _ (List.forall_iff_forall_mem.mp (by no_stretch_writes))
theorem V_main_arg8 (c : Dev nD) : V m c main_arg8 = m ((c : Thread nD τ).loc main_arg8) :=
  StableHlo.after_of_forall_not_mem (b := Proc.devRef .tc main_arg8) _ _ (List.forall_iff_forall_mem.mp (by no_stretch_writes))
theorem V_main_arg9 (c : Dev nD) : V m c main_arg9 = m ((c : Thread nD τ).loc main_arg9) :=
  StableHlo.after_of_forall_not_mem (b := Proc.devRef .tc main_arg9) _ _ (List.forall_iff_forall_mem.mp (by no_stretch_writes))
theorem V_main_arg10 (c : Dev nD) : V m c main_arg10 = m ((c : Thread nD τ).loc main_arg10) :=
  StableHlo.after_of_forall_not_mem (b := Proc.devRef .tc main_arg10) _ _ (List.forall_iff_forall_mem.mp (by no_stretch_writes))
theorem V_main_arg11 (c : Dev nD) : V m c main_arg11 = m ((c : Thread nD τ).loc main_arg11) :=
  StableHlo.after_of_forall_not_mem (b := Proc.devRef .tc main_arg11) _ _ (List.forall_iff_forall_mem.mp (by no_stretch_writes))
theorem V_main_arg12 (c : Dev nD) : V m c main_arg12 = m ((c : Thread nD τ).loc main_arg12) :=
  StableHlo.after_of_forall_not_mem (b := Proc.devRef .tc main_arg12) _ _ (List.forall_iff_forall_mem.mp (by no_stretch_writes))
theorem V_main_arg13 (c : Dev nD) : V m c main_arg13 = m ((c : Thread nD τ).loc main_arg13) :=
  StableHlo.after_of_forall_not_mem (b := Proc.devRef .tc main_arg13) _ _ (List.forall_iff_forall_mem.mp (by no_stretch_writes))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_tail_writes)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_tail_writes)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by no_tail_writes)),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by no_tail_writes)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by no_tail_writes)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by no_tail_writes)),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by no_tail_writes)),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by no_tail_writes)),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by no_tail_writes)),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by no_tail_writes)),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by no_tail_writes)),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by no_tail_writes)),
    Pipeline.withArrays_of_ne _ c (V0 m c) _ main_arg11 (by exact (by decide : ∀ w, Pipeline.arrRef spec0 w ≠ main_arg11))]
  exact V_main_arg11 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by no_tail_writes)),
    Pipeline.withArrays_of_ne _ c (V0 m c) _ main_arg12 (by exact (by decide : ∀ w, Pipeline.arrRef spec0 w ≠ main_arg12))]
  exact V_main_arg12 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by no_tail_writes)),
    Pipeline.withArrays_of_ne _ c (V0 m c) _ main_arg13 (by exact (by decide : ∀ w, Pipeline.arrRef spec0 w ≠ main_arg13))]
  exact V_main_arg13 m c

/-! ## The windows' blocks -/

/-- Window `w`'s block at point `t`, read off its array as the region finds it: for window 0 rows
    1024·t … 1024·t + 1023 of the column of row numbers, for windows 1 and 2 the whole high and low table, for
    window 3 the same rows of the result array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point (a new block is brought in at every point), for any description of the region whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point (the block is brought in at the first point only; at a later point the block's position has not moved, so the buffer still holds it), for any description of the region whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point (the block is brought in at the first point only; at a later point the block's position has not moved, so the buffer still holds it), for any description of the region whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From a run of the region's description to the arguments unchanged -/

/-- If the program runs to a state in which every window's array is what the description computes and every other
    lasting buffer is as the last operation leaves it, then it runs to a state in which the fourteen argument arrays
    are as launched: none of them is a window's array, and neither the stretches nor the last operation write one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c)⟩) h

/-! ## What the body leaves in the output window's buffer -/

/-- The whole output block: the one rectangle the body stores through. -/
abbrev rOut : Rect S1024x512 := Rect.unit (s := S1024x512) ![0, 0] S1024x512.size inb_S1024x512_S1024x512_0_0

/-- Window 3's buffer after the body, from the three input blocks: one piece, the accumulated sum of the seven
    chunks' one-hot products, laid over the whole block. -/
def out0_3 (x0 : Vec F S1024x1 .i32) (x1 x2 : Vec F S1792x512 .bf16) : Vec F S1024x512 .f32 :=
  View.canon [⟨rOut, bodyOut x0 x1 x2⟩]

/-- That piece covers the block: it is the block. -/
theorem cover0_3 (p0 : Vec F S1024x512 .f32) (y : S1024x512.Idx) :
    ∃ pc ∈ ([⟨rOut, p0⟩] : List (View.Piece (Elt F) S1024x512 .f32)), y ∈ pc.1.set :=
  View.cover_of_tiled [⟨rOut, p0⟩] S1024x512.size (by rfl) y

/-! ## The region, point by point -/

/-- The description of the region on core `c`: the windows' arrays as the region finds them; after the body at
    point `t` each input's buffer at its block and the output's at `out0_3` of the three input blocks; the
    invariant is the untouched rest (the scoped buffers that are no staging buffer, and the generator's register);
    nothing is owed to another core; every buffer is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The description's arrays are the region-entry contents (a projection of the definition: the contents, a fold
    over forty-one operations, are not opened to see it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input window's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Hand

end
-- ==== Proof.KFrameB.lean ====
/-
  The run of the kernel program, and its argument arrays unchanged.

  The body of the region, called on the four windows' buffers — the three inputs' holding a block of row numbers,
  the high table and the low table, the output's holding anything — reads the row numbers once and the two tables
  chunk by chunk (seven chunks of 256 rows each), reads the output block once without using what it read, and stores
  one value over the whole output block: the accumulated sum of the seven chunks' one-hot products. It leaves the
  inputs' buffers as they were and the output's at that value. With each input's buffer holding its block at every
  point, this is the region's obligation at every point; so the program runs to a state in which the result array
  is what the 256 write-backs leave and every other lasting buffer is as the last host operation leaves it; and,
  the fourteen argument arrays being written by nothing, they end as launched.
-/
import proofs.«401078_j56676388438136_3_alg».proof.Proof.KFrameDefsB
import Idealize.ShloMosaic.Lib.Pipeline.Value

-- membership in a rectangle of 1024 × 512 entries is looked at once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on the windows' buffers -/

set_option maxHeartbeats 400000 in
/-- The body on four whole buffers — the inputs' reading `x0`, `x1`, `x2`, the output's holding anything — runs to
    its continuation with the inputs' buffers as they were and the output's reading `out0_3 x0 x1 x2`: its fifteen
    live reads are of the inputs through fixed rectangles, and its one store covers the output block. The value
    stored is `bodyOut x0 x1 x2`: the body reads the row numbers through the rectangle that is their whole block,
    which reads the block itself; the table chunks it reads are rows 256·k … 256·k + 255, and the offset 4 · 256 it
    passes on is the word 1024. -/
theorem sound_kernel (c : Dev nD) (E : Set ℕ) (i : grid0.Coords)
    (arg1 : Memref sig .tc .vmem S1024x1 .i32) (harg1 : arg1.IsWhole) (arg2 : Memref sig .tc .vmem S1792x512 .bf16) (harg2 : arg2.IsWhole)
    (arg3 : Memref sig .tc .vmem S1792x512 .bf16) (harg3 : arg3.IsWhole) (arg4 : Memref sig .tc .vmem S1024x512 .f32) (harg4 : arg4.IsWhole)
    (x0 : Vec F S1024x1 .i32) (x1 x2 : Vec F S1792x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embedding_gather_kernel i arg1 harg1 arg2 harg2 arg3 harg3 arg4 harg4) K := by
  simp only [cc0__embedding_gather_kernel_eq_skeleton]; unfold cc0__embedding_gather_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _)]
  unfold out0_3 bodyOut
  sl_unfold_run_names
  have hz : (![0, 0] : Fin S1024x1.rank → Nat) = fun _ => 0 := by funext a; fin_cases a <;> rfl
  have hids : View.readAt (Elt F) arg1.view (Rect.unit (s := S1024x1) ![0, 0] S1024x1.size inb_S1024x1_S1024x1_0_0).toLoadRect f0
      = View.read (Elt F) arg1.view f0 :=
    (View.readAt_eq_ld arg1.view f0 _).trans (View.ld_unit_zero (S := S1024x1) hz _ _)
  rw [hids]
  rfl

/-! ## The region's obligation, at a generic point -/

/-- What the body is called with at point `t`: the invariant, what the core owes, and each window's current buffer
    at what the description says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns: the same with each buffer at what the description says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies at the three blocks; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's obligation, at every point. -/
theorem body_obligation (c : Dev nD) : BodyObligation (dats (F := F) m 0 c) (defs₀ (F := F)) Variants.none () Set.univ := fun t => by
  rw [bigSep_W0, bigSep_W0]
  exact sound_body m c t

/-! ## The run, and the arguments unchanged -/

-- the run theorem's implicit arguments are found by unifying its conclusion with this statement, which takes
-- unfolding plain definitions inside the type of an unknown
set_option backward.isDefEq.respectTransparency.types false in
/-- At the compiled mesh, for any values, from any memory with zero counters: every weakly fair execution of the
    program on the TensorCores terminates, and every final state has each window's array at what the description
    computes — the result array at the 256 written-back blocks — and every other lasting buffer as the last host
    operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (run_main m ρ)

end Cert.Kernel.Hand

end
-- ==== Proof.KHost.lean ====
/-
  What three buffers of the kernel program hold when its region is entered, read at an index.

  The host operations before the region come in seven stretches. The first stacks the twelve float inputs into
  the fused table (1726 rows of 512). The second pads it with 66 zero rows below (1792 rows); the padding value is
  the integer zero converted to a float. The third splits the padded table into a high part (the table in the
  narrow float format) and a low part (the table less its high part, again in the narrow format). The fourth looks
  the token ids up in the flat map, giving the row numbers. The fifth and sixth clip the row numbers to [0, 1725].
  The seventh lays the 32 x 8192 clipped row numbers out as one column of 262144.

  At the ideal instance a change of float format is the identity, the integer zero converts to the real zero, and
  a real number less itself is zero. So the high part is the table on the table's rows; the low part is zero
  everywhere, provided every entry of the table is real; and the token column at n is the row number of token
  (n / 8192, n mod 8192), provided every row number is a row of the table (then the clip does nothing). The row
  numbers themselves stay an opaque term of the two integer inputs: only their range is used.

  Last, every entry of the fused table is real when every entry of each of the twelve inputs is: an entry of a
  concatenation is an entry of one of its pieces.
-/
import proofs.«401078_j56676388438136_3_alg».proof.Proof.KTerm
import proofs.«401078_j56676388438136_3_alg».proof.Proof.Spec
import Idealize.ShloMosaic.Lib.StableHlo.Run
import Idealize.ShloMosaic.Lib.ValueIdx
import Idealize.ShloMosaic.Lib.Pipeline.Value
import Idealize.ShloMosaic.Lib.KernelVsHost

noncomputable section

namespace Cert.KernelIdeal.Hand

open Idealize.ShloMosaic Idealize.ShloMosaic.TcCoe Idealize.SL.Sem Idealize.ShloMosaic.ValueIdx
open Cert.KernelIdeal Cert.KernelIdeal.Gen

namespace KHost

/-! ## Each stretch of host operations, from any contents -/

section Stretches
variable (W : Valuation τ sig (Elt Ideal))

/-- The first stretch stacks the twelve pieces. -/
theorem st0_v1 : (StableHlo.after hostOps0 W (Proc.devRef .tc main_v1) : Vec Ideal S1726x512 .f32)
    = table (W (Proc.devRef .tc main_arg2)) (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9))
        (W (Proc.devRef .tc main_arg10)) (W (Proc.devRef .tc main_arg11)) (W (Proc.devRef .tc main_arg12)) (W (Proc.devRef .tc main_arg13)) := by
  after_results; rfl
/-- … and writes the integer zero that becomes the padding value. -/
theorem st0_c : (StableHlo.after hostOps0 W (Proc.devRef .tc main_c) : IVec S_ 32) = constantI S_ 32 0#32 := by
  after_results

/-- The second stretch pads the stacked table with 66 rows below. -/
theorem st1_v2 : (StableHlo.after hostOps0_1 W (Proc.devRef .tc main_v2) : Vec Ideal S1792x512 .f32)
    = pad S1792x512 ![0, 0] ![66, 0] ![0, 0] (W (Proc.devRef .tc main_v1) : Vec Ideal S1726x512 .f32)
        (sitofp (F := Ideal) .f32 (W (Proc.devRef .tc main_c) : IVec S_ 32)) pads_S1726x512_S1792x512_0660_000 h_S_ := by
  after_results; rfl

/-- The third stretch: the high part is the padded table in the narrow format … -/
theorem st2_v3 : (StableHlo.after hostOps0_2 W (Proc.devRef .tc main_v3) : Vec Ideal S1792x512 .bf16)
    = truncf (F := Ideal) (s := S1792x512) .bf16 (W (Proc.devRef .tc main_v2) : Vec Ideal S1792x512 .f32) bitsLt_bf16_f32 := by
  after_results
/-- … and the low part is what the high part leaves of it, again in the narrow format. -/
theorem st2_v6 : (StableHlo.after hostOps0_2 W (Proc.devRef .tc main_v6) : Vec Ideal S1792x512 .bf16)
    = truncf (F := Ideal) (s := S1792x512) .bf16 (subf (W (Proc.devRef .tc main_v2) : Vec Ideal S1792x512 .f32)
        (extf .f32 (truncf .bf16 (W (Proc.devRef .tc main_v2) : Vec Ideal S1792x512 .f32) bitsLt_bf16_f32) bitsLt_bf16_f32)) bitsLt_bf16_f32 := by
  after_results

/-- The fourth stretch looks the token ids up in the flat map. -/
theorem st3_v7 : (StableHlo.after hostOps0_3 W (Proc.devRef .tc main_v7) : IVec S32x8192 32)
    = takeRow (W (Proc.devRef .tc main_arg1)) (W (Proc.devRef .tc main_arg0)) := by
  after_results_simp
  simp only [cast_eq]
  rfl

/-- The fifth stretch writes the two clip bounds and leaves the row numbers. -/
theorem st4_c0 : (StableHlo.after hostOps0_4 W (Proc.devRef .tc main_c_0) : IVec S_ 32) = constantI S_ 32 0#32 := by
  after_results
theorem st4_c1 : (StableHlo.after hostOps0_4 W (Proc.devRef .tc main_c_1) : IVec S_ 32) = constantI S_ 32 1725#32 := by
  after_results
theorem st4_v7 : StableHlo.after hostOps0_4 W (Proc.devRef .tc main_v7) = W (Proc.devRef .tc main_v7) := by
  after_results

/-- The sixth stretch clips the row numbers between the bounds. -/
theorem st5_v8 : (StableHlo.after hostOps0_5 W (Proc.devRef .tc main_v8) : IVec S32x8192 32)
    = minsi (broadcastInDim S32x8192 ![] bcast_S_S32x8192 (W (Proc.devRef .tc main_c_1) : IVec S_ 32))
        (maxsi (broadcastInDim S32x8192 ![] bcast_S_S32x8192 (W (Proc.devRef .tc main_c_0) : IVec S_ 32)) (W (Proc.devRef .tc main_v7) : IVec S32x8192 32)) := by
  after_results; rfl

/-- The seventh stretch lays the clipped row numbers out as one column. -/
theorem st6_v10 : (StableHlo.after hostOps0_6 W (Proc.devRef .tc main_v10) : IVec S262144x1 32)
    = shapeCast S262144x1 (shapeCast S262144 (W (Proc.devRef .tc main_v8) : IVec S32x8192 32) shapeCasts_S32x8192_S262144) shapeCasts_S262144_S262144x1 := by
  after_results; rfl

/-- The first three stretches leave the two integer inputs as they were. -/
theorem pre_arg0 : StableHlo.after hostOps0_2 (StableHlo.after hostOps0_1 (StableHlo.after hostOps0 W)) (Proc.devRef .tc main_arg0)
    = W (Proc.devRef .tc main_arg0) := by after_results_simp
theorem pre_arg1 : StableHlo.after hostOps0_2 (StableHlo.after hostOps0_1 (StableHlo.after hostOps0 W)) (Proc.devRef .tc main_arg1)
    = W (Proc.devRef .tc main_arg1) := by after_results_simp

/-- The last four stretches leave the two parts of the table as they were. -/
theorem post_v3 : StableHlo.after hostOps0_6 (StableHlo.after hostOps0_5 (StableHlo.after hostOps0_4 (StableHlo.after hostOps0_3 W))) (Proc.devRef .tc main_v3)
    = W (Proc.devRef .tc main_v3) := by after_results_simp
theorem post_v6 : StableHlo.after hostOps0_6 (StableHlo.after hostOps0_5 (StableHlo.after hostOps0_4 (StableHlo.after hostOps0_3 W))) (Proc.devRef .tc main_v6)
    = W (Proc.devRef .tc main_v6) := by after_results_simp

end Stretches

end KHost

/-! ## The three buffers as terms of the inputs -/

variable (m : (ℓ : Loc nD τ sig) → Buf (Elt Ideal) ℓ) (c : Dev nD)

/-- The row numbers, from the two integer inputs. -/
abbrev idx : IVec S32x8192 32 := takeRow (m ((c : Thread nD τ).loc main_arg1)) (m ((c : Thread nD τ).loc main_arg0))

/-- The fused table, from the twelve float inputs. -/
abbrev tab : Vec Ideal S1726x512 .f32 :=
  table (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

namespace KHost

/-- The region-entry contents are the seven stretches applied one after the other. -/
theorem V0_split : V0 m c = StableHlo.after hostOps0_6 (StableHlo.after hostOps0_5 (StableHlo.after hostOps0_4 (StableHlo.after hostOps0_3
    (StableHlo.after hostOps0_2 (StableHlo.after hostOps0_1 (StableHlo.after hostOps0 (fun b => m (c, b)))))))) := by
  dsimp only [V0]
  simp only [List.flatten_cons, List.flatten_nil, List.append_nil, StableHlo.after_append]

/-- The padded table. -/
abbrev padded : Vec Ideal S1792x512 .f32 :=
  pad S1792x512 ![0, 0] ![66, 0] ![0, 0] (tab m c) (sitofp (F := Ideal) .f32 (constantI S_ 32 0#32)) pads_S1726x512_S1792x512_0660_000 h_S_

theorem V_v3_term : (V m c main_v3 : Vec Ideal S1792x512 .bf16)
    = truncf (F := Ideal) (s := S1792x512) .bf16 (padded m c) bitsLt_bf16_f32 := by
  show V0 m c (Proc.devRef .tc main_v3) = _
  rw [V0_split, post_v3, st2_v3, st1_v2, st0_v1, st0_c]

theorem V_v6_term : (V m c main_v6 : Vec Ideal S1792x512 .bf16)
    = truncf (F := Ideal) (s := S1792x512) .bf16 (subf (padded m c)
        (extf .f32 (truncf .bf16 (padded m c) bitsLt_bf16_f32) bitsLt_bf16_f32)) bitsLt_bf16_f32 := by
  show V0 m c (Proc.devRef .tc main_v6) = _
  rw [V0_split, post_v6, st2_v6, st1_v2, st0_v1, st0_c]

theorem V_v10_term : (V m c main_v10 : IVec S262144x1 32)
    = shapeCast S262144x1 (shapeCast S262144
        (minsi (broadcastInDim S32x8192 ![] bcast_S_S32x8192 (constantI S_ 32 1725#32))
          (maxsi (broadcastInDim S32x8192 ![] bcast_S_S32x8192 (constantI S_ 32 0#32)) (idx m c)))
        shapeCasts_S32x8192_S262144) shapeCasts_S262144_S262144x1 := by
  show V0 m c (Proc.devRef .tc main_v10) = _
  rw [V0_split, st6_v10, st5_v8, st4_c0, st4_c1, st4_v7, st3_v7, pre_arg0, pre_arg1]

/-! ## Read at an index -/

/-- A signed clip to [0, 1725] leaves a word below 1726 as it is. -/
theorem clip_id (v : BitVec 32) (hv : v.toNat < 1726) : IntOp.minsi 1725#32 (IntOp.maxsi 0#32 v) = v := by
  have h1 : v.toInt = (v.toNat : Int) := BitVec.toInt_eq_toNat_of_lt (by omega)
  have h0 : (0#32 : BitVec 32).toInt = 0 := by decide
  have h2 : (1725#32 : BitVec 32).toInt = 1725 := by decide
  have e1 : v.slt 0#32 = false := by rw [BitVec.slt, h1, h0]; exact decide_eq_false (by omega)
  have e2 : (1725#32 : BitVec 32).slt v = false := by rw [BitVec.slt, h1, h2]; exact decide_eq_false (by omega)
  unfold IntOp.maxsi
  rw [e1, if_neg (by decide)]
  unfold IntOp.minsi
  rw [e2, if_neg (by decide)]

/-- A row of the padded table that is a row of the table. -/
theorem padded_inside (j : Fin 1726) (d : Fin 512) :
    padded m c (ix2 (⟨j.val, by omega⟩ : Fin 1792) d) = tab m c (ix2 j d) :=
  pad_apply_of_inside _ _ _ _ _ _ _ _ (ix2 j d) (fun a => by
    match a with
    | ⟨0, _⟩ => show j.val = 0 + j.val * (0 + 1); omega
    | ⟨1, _⟩ => show d.val = 0 + d.val * (0 + 1); omega)

/-- A row of the padded table below the table holds the padding value, the integer zero as a float. -/
theorem padded_outside (j : Fin 1792) (d : Fin 512) (hj : ¬ j.val < 1726) : padded m c (ix2 j d) = 0 := by
  refine (pad_apply_of_not_inside _ _ _ _ _ _ _ (ix2 j d) (0 : Fin 2) (fun h => hj ?_)).trans ?_
  · have h3 := h.2.2
    change (j.val - 0) / (0 + 1) < 1726 at h3
    omega
  · show (((0#32 : BitVec 32).toInt : ℝ) : EReal) = 0
    simp

/-- Every entry of the padded table is a real number when every entry of the table is. -/
theorem padded_real (hreal : Cert.Fused.AllReal (tab m c)) (j : Fin 1792) (d : Fin 512) :
    ∃ r : ℝ, padded m c (ix2 j d) = (r : EReal) := by
  by_cases hj : j.val < 1726
  · obtain ⟨r, hr⟩ := hreal (ix2 (⟨j.val, hj⟩ : Fin 1726) d)
    exact ⟨r, (padded_inside m c ⟨j.val, hj⟩ d).trans hr⟩
  · exact ⟨0, (padded_outside m c j d hj).trans EReal.coe_zero.symm⟩

/-! ## The table's entries are real -/

/-- A property of every entry of every piece holds of every entry of the concatenation: an entry of the
    concatenation is an entry of one piece. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) : P (concatenate t a xs h j) := by
  unfold concatenate
  exact hP _ (List.getElem_mem _) _

end KHost

open KHost

/-! ## The three buffers at an index, and the table's entries -/

/-- The token column at token n is the row number of token (n / 8192, n mod 8192): the two reshapes keep the
    row-major position, and the clip does nothing to a row number of the table. -/
theorem V_ids (hrows : Cert.Fused.RowsOk (idx m c)) (n : Fin 262144) :
    V m c main_v10 (ix2 n (0 : Fin 1)) = idx m c (ix2 ⟨n.val / 8192, by omega⟩ ⟨n.val % 8192, by omega⟩) := by
  refine (congrFun (V_v10_term m c) _).trans ?_
  rw [shapeCast_apply _ shapeCasts_S262144_S262144x1 (ix2 n (0 : Fin 1)) (ix1 n)
    (by rw [Shape.rowMajor_val_one, Shape.rowMajor_val_two]; show n.val = n.val * 1 + 0; omega)]
  rw [shapeCast_apply _ shapeCasts_S32x8192_S262144 (ix1 n) (ix2 ⟨n.val / 8192, by omega⟩ ⟨n.val % 8192, by omega⟩)
    (by rw [Shape.rowMajor_val_one, Shape.rowMajor_val_two]; show n.val / 8192 * 8192 + n.val % 8192 = n.val; omega)]
  exact clip_id _ (hrows _)

/-- The high part, on the table's rows, is the table. -/
theorem V_hi (j : Fin 1726) (d : Fin 512) :
    V m c main_v3 (ix2 (⟨j.val, by omega⟩ : Fin 1792) d) = tab m c (ix2 j d) :=
  (congrFun (V_v3_term m c) _).trans (padded_inside m c j d)

/-- The low part is zero everywhere: it is the padded table less itself, and a real number less itself is zero. -/
theorem V_lo (hreal : Cert.Fused.AllReal (tab m c)) (j : Fin 1792) (d : Fin 512) :
    V m c main_v6 (ix2 j d) = (0 : EReal) := by
  refine (congrFun (V_v6_term m c) _).trans ?_
  show padded m c (ix2 j d) - padded m c (ix2 j d) = 0
  obtain ⟨r, hr⟩ := padded_real m c hreal j d
  rw [hr, ← EReal.coe_sub, sub_self, EReal.coe_zero]

/-- Every entry of the fused table is real when every entry of each of the twelve inputs is. -/
theorem tab_real
    (h2 : Cert.Fused.AllReal (m ((c : Thread nD τ).loc main_arg2))) (h3 : Cert.Fused.AllReal (m ((c : Thread nD τ).loc main_arg3)))
    (h4 : Cert.Fused.AllReal (m ((c : Thread nD τ).loc main_arg4))) (h5 : Cert.Fused.AllReal (m ((c : Thread nD τ).loc main_arg5)))
    (h6 : Cert.Fused.AllReal (m ((c : Thread nD τ).loc main_arg6))) (h7 : Cert.Fused.AllReal (m ((c : Thread nD τ).loc main_arg7)))
    (h8 : Cert.Fused.AllReal (m ((c : Thread nD τ).loc main_arg8))) (h9 : Cert.Fused.AllReal (m ((c : Thread nD τ).loc main_arg9)))
    (h10 : Cert.Fused.AllReal (m ((c : Thread nD τ).loc main_arg10))) (h11 : Cert.Fused.AllReal (m ((c : Thread nD τ).loc main_arg11)))
    (h12 : Cert.Fused.AllReal (m ((c : Thread nD τ).loc main_arg12))) (h13 : Cert.Fused.AllReal (m ((c : Thread nD τ).loc main_arg13))) :
    Cert.Fused.AllReal (tab m c) := by
  intro j
  refine concatenate_forall (fun x : EReal => ∃ r : ℝ, x = (r : EReal)) _ _ _ _ (fun p hp i => ?_) j
  simp only [List.mem_cons, List.not_mem_nil, or_false] at hp
  rcases hp with rfl | rfl | rfl | rfl | rfl | rfl | rfl | rfl | rfl | rfl | rfl | rfl
  · exact h2 i
  · exact h3 i
  · exact h4 i
  · exact h5 i
  · exact h6 i
  · exact h7 i
  · exact h8 i
  · exact h9 i
  · exact h10 i
  · exact h11 i
  · exact h12 i
  · exact h13 _

end Cert.KernelIdeal.Hand

end
-- ==== Proof.KBody.lean ====
/-
  The arithmetic of the kernel body read at one index.

  The body walks the 1792 rows of the padded table in seven chunks of 256 rows. For chunk K it builds a 1024 x 256
  matrix whose entry (r, k) is 1 when k + 256·K is token r's row number and 0 otherwise, multiplies it by the chunk
  of the table's high part and by the chunk of its low part (each product accumulated from zero), and adds the two
  products to what the earlier chunks left; the first chunk adds to the zero splat.

  At (r, d), with j < 1792 the row number of token r: in the one chunk K = j / 256 the one-hot row has its single 1
  at column j mod 256, so that chunk contributes hi[j, d] + lo[j, d]; every other product is 0 · x, which is 0 for
  every extended real x, and x + 0 = x, so the six other chunks and the zero splat contribute nothing. No finiteness
  is used. A chunk's load of rows 256·K … 256·K + 255 reads the block 256·K rows further down.
-/
import proofs.«401078_j56676388438136_3_alg».proof.Proof.KTerm
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

/-! ## Two facts about sums and words -/

/-- A sum against a row of zeros with at most one 1: the 1 sits at column j - W when W ≤ j < W + 256, and then the sum
    is that column's entry; otherwise every term is zero. -/
theorem sum_onehot (a : Fin 256 → EReal) (W j : ℕ) :
    ∑ k : Fin 256, (if k.val + W = j then (1 : EReal) else 0) * a k
      = if h : W ≤ j ∧ j < W + 256 then a ⟨j - W, by omega⟩ else 0 := by
  split
  · rename_i h
    rw [Finset.sum_eq_single (⟨j - W, by omega⟩ : Fin 256)]
    · rw [if_pos (show j - W + W = j by omega), one_mul]
    · intro b _ hb
      rw [if_neg, zero_mul]
      intro hbj; apply hb; apply Fin.ext; show b.val = j - W; omega
    · intro h; exact absurd (Finset.mem_univ _) h
  · rename_i h
    apply Finset.sum_eq_zero
    intro k _
    rw [if_neg, zero_mul]
    have := k.isLt
    omega

/-- The comparison bit of "k + w = id" on 32-bit words, widened to 32 bits and read as a signed integer, is 1 or 0
    according to the equation on natural numbers, as long as k + w does not wrap. -/
theorem onehot_word (w id : BitVec 32) (k : ℕ) (hk : k + w.toNat < 2 ^ 32) :
    ((((BitVec.ofBool (BitVec.ofNat 32 k + w == id)).setWidth 32).toInt : ℝ) : EReal)
      = if k + w.toNat = id.toNat then 1 else 0 := by
  have hiff : (BitVec.ofNat 32 k + w = id) ↔ k + w.toNat = id.toNat := by
    rw [← BitVec.toNat_inj, BitVec.toNat_add, BitVec.toNat_ofNat]
    have := id.isLt
    constructor <;> intro h <;> omega
  by_cases h : BitVec.ofNat 32 k + w = id
  · rw [if_pos (hiff.mp h)]
    have : (BitVec.ofNat 32 k + w == id) = true := by simpa using h
    rw [this]; simp
  · rw [if_neg (fun h' => h (hiff.mpr h'))]
    have : (BitVec.ofNat 32 k + w == id) = false := by simpa using h
    rw [this]; simp

/-! ## A 1024 x 256 by 256 x 512 product at an index -/

/-- The operand indices of the product, axis by axis: the left operand reads (row of the result, contraction
    position), the right operand (contraction position, column of the result). -/
theorem lhs_ax0 (j : S1024x512.Idx) (k : dot_S1024x256_S256x512_S1024x512_1_0_0_1_n_n.contr.Idx) :
    (dot_S1024x256_S256x512_S1024x512_1_0_0_1_n_n.lhsIdx j k 0 : ℕ) = j 0 := by
  simp [DotDims.lhsIdx, dot_S1024x256_S256x512_S1024x512_1_0_0_1_n_n]; rfl
theorem lhs_ax1 (j : S1024x512.Idx) (k : dot_S1024x256_S256x512_S1024x512_1_0_0_1_n_n.contr.Idx) :
    (dot_S1024x256_S256x512_S1024x512_1_0_0_1_n_n.lhsIdx j k 1 : ℕ) = k ⟨0, by decide⟩ := by
  simp [DotDims.lhsIdx, dot_S1024x256_S256x512_S1024x512_1_0_0_1_n_n]; rfl
theorem rhs_ax0 (j : S1024x512.Idx) (k : dot_S1024x256_S256x512_S1024x512_1_0_0_1_n_n.contr.Idx) :
    (dot_S1024x256_S256x512_S1024x512_1_0_0_1_n_n.rhsIdx j k 0 : ℕ) = k ⟨0, by decide⟩ := by
  simp [DotDims.rhsIdx, dot_S1024x256_S256x512_S1024x512_1_0_0_1_n_n]; rfl
theorem rhs_ax1 (j : S1024x512.Idx) (k : dot_S1024x256_S256x512_S1024x512_1_0_0_1_n_n.contr.Idx) :
    (dot_S1024x256_S256x512_S1024x512_1_0_0_1_n_n.rhsIdx j k 1 : ℕ) = j 1 := by
  simp [DotDims.rhsIdx, dot_S1024x256_S256x512_S1024x512_1_0_0_1_n_n]; rfl

/-- The product accumulated from the zero splat, at (r, d): the sum over the 256 columns c of A[r, c] · B[c, d]. -/
theorem matmul_zero_apply (A : FVec Ideal S1024x256 .bf16) (B : FVec Ideal S256x512 .bf16) (r : Fin 1024) (d : Fin 512) :
    matmul dot_S1024x256_S256x512_S1024x512_1_0_0_1_n_n none A B (constant S1024x512 .f32 0x00000000#32) (ix2 r d)
      = ∑ c : Fin 256, A (ix2 r c) * B (ix2 c d) := by
  show FloatOps.matmul _ none A B _ (ix2 r d) = _
  rw [Ideal.matmul_constant_zero_apply,
    ← Equiv.sum_comp (contrEquiv1 dot_S1024x256_S256x512_S1024x512_1_0_0_1_n_n 256 rfl rfl).symm]
  refine Finset.sum_congr rfl fun c _ => ?_
  have hc := contrEquiv1_symm_val dot_S1024x256_S256x512_S1024x512_1_0_0_1_n_n 256 rfl rfl c
  have hl : dot_S1024x256_S256x512_S1024x512_1_0_0_1_n_n.lhsIdx (ix2 r d)
      ((contrEquiv1 dot_S1024x256_S256x512_S1024x512_1_0_0_1_n_n 256 rfl rfl).symm c) = ix2 r c := by
    funext ax; apply Fin.ext
    match ax with
    | ⟨0, _⟩ => exact lhs_ax0 _ _
    | ⟨1, _⟩ => exact (lhs_ax1 _ _).trans hc
  have hr : dot_S1024x256_S256x512_S1024x512_1_0_0_1_n_n.rhsIdx (ix2 r d)
      ((contrEquiv1 dot_S1024x256_S256x512_S1024x512_1_0_0_1_n_n 256 rfl rfl).symm c) = ix2 c d := by
    funext ax; apply Fin.ext
    match ax with
    | ⟨0, _⟩ => exact (rhs_ax0 _ _).trans hc
    | ⟨1, _⟩ => exact rhs_ax1 _ _
  rw [hl, hr]

/-! ## The one-hot matrix of a chunk -/

/-- The hit mask of one chunk: at (r, k), whether column k of the chunk that starts at word w is token r's row. -/
def hit (w : BitVec 32) (v1 : IVec S1024x1 32) : IVec S1024x256 1 :=
  cmpi .eq (addi (iota .tc S1024x256 32 [1] iota_S1024x256_d1_w32) (broadcast S1024x256 w))
    (broadcastTo S1024x256 v1 broadcasts_S1024x1_S1024x256)

/-- The mask as a matrix of ones and zeros. -/
def onehotOf (b : IVec S1024x256 1) : FVec Ideal S1024x256 .bf16 :=
  truncf .bf16 (sitofp .f32 (extui 32 b natLt_1_32)) bitsLt_bf16_f32

/-- The mask at (r, k): the comparison bit of "k + w = token r's row number" on words. -/
theorem hit_apply (w : BitVec 32) (v1 : IVec S1024x1 32) (r : Fin 1024) (k : Fin 256) :
    hit w v1 (ix2 r k) = BitVec.ofBool (BitVec.ofNat 32 k.val + w == v1 (ix2 r (0 : Fin 1))) := by
  unfold hit
  show IntOp.cmpi .eq (IntOp.addi (iota .tc S1024x256 32 [1] iota_S1024x256_d1_w32 (ix2 r k)) w)
      (broadcastTo S1024x256 v1 broadcasts_S1024x1_S1024x256 (ix2 r k)) = _
  rw [iota_single_apply, broadcastTo_apply v1 broadcasts_S1024x1_S1024x256 (ix2 r k) (ix2 r (0 : Fin 1)) (by
    intro a
    match a with
    | ⟨0, _⟩ => rfl
    | ⟨1, _⟩ => rfl)]
  rfl

/-- An entry of the matrix: the mask's bit read as a number (format changes are the identity). -/
theorem onehotOf_apply (b : IVec S1024x256 1) (i : S1024x256.Idx) :
    onehotOf b i = ((((b i).setWidth 32).toInt : ℝ) : EReal) := rfl

/-- With W the chunk's first row and j the token's row number: the entry is 1 exactly at column k = j - W. -/
theorem onehot_entry (w : BitVec 32) (v1 : IVec S1024x1 32) (r : Fin 1024) (k : Fin 256) (W j : ℕ)
    (hw : w.toNat = W) (hW : W + 256 ≤ 2 ^ 32) (hj : (v1 (ix2 r (0 : Fin 1))).toNat = j) :
    onehotOf (hit w v1) (ix2 r k) = if k.val + W = j then 1 else 0 := by
  rw [onehotOf_apply, hit_apply, onehot_word _ _ _ (by have := k.isLt; omega), hw, hj]

/-! ## One chunk's contribution -/

/-- One chunk's contribution: the one-hot matrix times the chunk of the high part plus the one-hot matrix times the
    chunk of the low part, each product accumulated from zero. -/
def chunkTerm (b : IVec S1024x256 1) (h l : FVec Ideal S256x512 .bf16) : FVec Ideal S1024x512 .f32 :=
  addf (matmul dot_S1024x256_S256x512_S1024x512_1_0_0_1_n_n none (onehotOf b) h (constant S1024x512 .f32 0x00000000#32))
    (matmul dot_S1024x256_S256x512_S1024x512_1_0_0_1_n_n none (onehotOf b) l (constant S1024x512 .f32 0x00000000#32))

/-- A load of 256 rows from row W on, all columns, reads the array W rows further down. -/
theorem ld_rows (x : Vec Ideal S1792x512 .bf16) (off : Fin 2 → ℕ)
    (inb : ∀ a, off a + S256x512.size a ≤ S1792x512.size a) (W : ℕ) (h0 : off 0 = W) (h1 : off 1 = 0)
    (k : Fin 256) (d : Fin 512) (hk : W + k.val < 1792) :
    View.ld x (Rect.unit (s := S1792x512) off S256x512.size inb) (ix2 k d) = x (ix2 ⟨W + k.val, hk⟩ d) := by
  show x _ = x _
  refine congrArg x (funext fun a => Fin.ext ?_)
  match a with
  | ⟨0, _⟩ => show off 0 + 1 * k.val = W + k.val; omega
  | ⟨1, _⟩ => show off 1 + 1 * d.val = d.val; omega

/-- One chunk at an index: the token's row of the two parts if the row lies in this chunk, else zero. -/
theorem chunkTerm_apply (w : BitVec 32) (v1 : IVec S1024x1 32) (x1 x2 : Vec Ideal S1792x512 .bf16) (off : Fin 2 → ℕ)
    (inb : ∀ a, off a + S256x512.size a ≤ S1792x512.size a) (W : ℕ) (hw : w.toNat = W) (h0 : off 0 = W) (h1 : off 1 = 0)
    (r : Fin 1024) (d : Fin 512) (j : Fin 1792) (hj : (v1 (ix2 r (0 : Fin 1))).toNat = j.val) :
    chunkTerm (hit w v1) (View.ld x1 (Rect.unit (s := S1792x512) off S256x512.size inb))
        (View.ld x2 (Rect.unit (s := S1792x512) off S256x512.size inb)) (ix2 r d)
      = if W ≤ j.val ∧ j.val < W + 256 then x1 (ix2 j d) + x2 (ix2 j d) else 0 := by
  have hW : W + 256 ≤ 1792 := by have := inb 0; rw [h0] at this; exact this
  unfold chunkTerm
  rw [addf_apply, matmul_zero_apply, matmul_zero_apply]
  simp only [onehot_entry w v1 r _ W j.val hw (by omega) hj]
  rw [sum_onehot, sum_onehot]
  by_cases hin : W ≤ j.val ∧ j.val < W + 256
  · rw [dif_pos hin, dif_pos hin, if_pos hin, ld_rows x1 off inb W h0 h1 _ d (by show W + (j.val - W) < 1792; omega),
      ld_rows x2 off inb W h0 h1 _ d (by show W + (j.val - W) < 1792; omega)]
    have e : (⟨W + (j.val - W), by omega⟩ : Fin 1792) = j := Fin.ext (by show W + (j.val - W) = j.val; omega)
    rw [e]
  · rw [dif_neg hin, dif_neg hin, if_neg hin, add_zero]

/-! ## The payloads as sums of chunk contributions -/

/-- The token column's shape cast is the identity. -/
theorem pay2_eq (x0 : Vec Ideal S1024x1 .i32) : k0_pay2 (F := Ideal) x0 = x0 := shapeCast_self _ _

/-- Chunks 0 and 1, accumulated from the zero splat. -/
theorem pay3_eq (x0 : Vec Ideal S1024x1 .i32) (v6 v9 v26 v29 : Vec Ideal S256x512 .bf16) :
    k0_pay3 (F := Ideal) x0 v6 v9 v26 v29
      = addf (addf (broadcast S1024x512 (Scalar.ofBits (F := Ideal) .f32 0x00000000#32))
            (chunkTerm (hit (Scalar.muli 0#32 256#32) x0) v6 v9))
          (chunkTerm (hit (Scalar.muli 1#32 256#32) x0) v26 v29) := by
  have e : k0_pay3 (F := Ideal) x0 v6 v9 v26 v29
      = addf (addf (broadcast S1024x512 (Scalar.ofBits (F := Ideal) .f32 0x00000000#32))
            (chunkTerm (hit (Scalar.muli 0#32 256#32) (k0_pay2 (F := Ideal) x0)) (shapeCast S256x512 v6 shapeCasts_S256x512_S256x512)
              (shapeCast S256x512 v9 shapeCasts_S256x512_S256x512)))
          (chunkTerm (hit (Scalar.muli 1#32 256#32) (k0_pay2 (F := Ideal) x0)) (shapeCast S256x512 v26 shapeCasts_S256x512_S256x512)
            (shapeCast S256x512 v29 shapeCasts_S256x512_S256x512)) := rfl
  rw [e, pay2_eq]
  simp only [shapeCast_self]

/-- Chunks 2 and 3 added to what came before. -/
theorem pay4_eq (v1 : IVec S1024x1 32) (v42 : FVec Ideal S1024x512 .f32) (c : BitVec 32) (v46 v49 v66 v69 : Vec Ideal S256x512 .bf16) :
    k0_pay4 (F := Ideal) v1 v42 c v46 v49 v66 v69
      = addf (addf v42 (chunkTerm (hit (Scalar.muli c 256#32) v1) v46 v49))
          (chunkTerm (hit (Scalar.muli 3#32 256#32) v1) v66 v69) := by
  have e : k0_pay4 (F := Ideal) v1 v42 c v46 v49 v66 v69
      = addf (addf v42 (chunkTerm (hit (Scalar.muli c 256#32) v1) (shapeCast S256x512 v46 shapeCasts_S256x512_S256x512)
              (shapeCast S256x512 v49 shapeCasts_S256x512_S256x512)))
          (chunkTerm (hit (Scalar.muli 3#32 256#32) v1) (shapeCast S256x512 v66 shapeCasts_S256x512_S256x512)
            (shapeCast S256x512 v69 shapeCasts_S256x512_S256x512)) := rfl
  rw [e]
  simp only [shapeCast_self]

/-- Chunks 4 and 5 added to what came before. -/
theorem pay6_eq (v1 : IVec S1024x1 32) (v82 : FVec Ideal S1024x512 .f32) (w : BitVec 32) (v87 : FVec Ideal S256x512 .bf16)
    (v89 v106 v109 : Vec Ideal S256x512 .bf16) :
    k0_pay6 (F := Ideal) v1 v82 w v87 v89 v106 v109
      = addf (addf v82 (chunkTerm (hit w v1) v87 v89)) (chunkTerm (hit (Scalar.muli 5#32 256#32) v1) v106 v109) := by
  have e : k0_pay6 (F := Ideal) v1 v82 w v87 v89 v106 v109
      = addf (addf v82 (chunkTerm (hit w v1) v87 (shapeCast S256x512 v89 shapeCasts_S256x512_S256x512)))
          (chunkTerm (hit (Scalar.muli 5#32 256#32) v1) (shapeCast S256x512 v106 shapeCasts_S256x512_S256x512)
            (shapeCast S256x512 v109 shapeCasts_S256x512_S256x512)) := rfl
  rw [e]
  simp only [shapeCast_self]

/-- Chunk 6 added to what came before. -/
theorem pay1_eq (v122 : FVec Ideal S1024x512 .f32) (v127 v130 : FVec Ideal S256x512 .bf16) (v135 : IVec S1024x256 1) :
    k0_pay1 (F := Ideal) v122 v127 v130 v135 = addf v122 (chunkTerm v135 v127 v130) := rfl

/-- The shape casts of the loaded chunks to their own shape are the identity. -/
theorem pay5_eq (v : Vec Ideal S256x512 .bf16) : k0_pay5 (F := Ideal) v = v := shapeCast_self _ _
theorem pay7_eq (v : Vec Ideal S256x512 .bf16) : k0_pay7 (F := Ideal) v = v := shapeCast_self _ _
theorem pay8_eq (v : Vec Ideal S256x512 .bf16) : k0_pay8 (F := Ideal) v = v := shapeCast_self _ _
/-- The last chunk's mask. -/
theorem pay9_eq (v1 : IVec S1024x1 32) : k0_pay9 v1 = hit (Scalar.muli 6#32 256#32) v1 := rfl

/-! ## The seven chunks together -/

/-- A row number below 1792 lies in exactly one of the seven chunks of 256 rows: of the seven contributions added to
    zero, one is the value and six are zero. -/
theorem seven_chunks (j : ℕ) (hj : j < 1792) (v : EReal) :
    (0 : EReal) + (if 0 ≤ j ∧ j < 0 + 256 then v else 0) + (if 256 ≤ j ∧ j < 256 + 256 then v else 0)
        + (if 512 ≤ j ∧ j < 512 + 256 then v else 0) + (if 768 ≤ j ∧ j < 768 + 256 then v else 0)
        + (if 1024 ≤ j ∧ j < 1024 + 256 then v else 0) + (if 1280 ≤ j ∧ j < 1280 + 256 then v else 0)
        + (if 1536 ≤ j ∧ j < 1536 + 256 then v else 0) = v := by
  split_ifs <;> first | omega | simp

/-- The body's result at (r, d): the token's row j of the high part plus row j of the low part. The seven chunk
    products collapse: in the chunk that holds row j the one-hot row has its single 1 at column j mod 256, every
    other product is zero times an entry, and zero times anything is zero on the extended reals. -/
theorem bodyOut_apply (x0 : Vec Ideal S1024x1 .i32) (x1 x2 : Vec Ideal S1792x512 .bf16) (r : Fin 1024) (d : Fin 512)
    (j : Fin 1792) (hj : (x0 (ix2 r (0 : Fin 1))).toNat = j.val) :
    bodyOut (F := Ideal) x0 x1 x2 (ix2 r d) = x1 (ix2 j d) + x2 (ix2 j d) := by
  have t0 := chunkTerm_apply (Scalar.muli 0#32 256#32) x0 x1 x2 (k0_off1 0#32) (k0_off1_inb 0) 0 (by decide) (by decide) (by decide) r d j hj
  have t1 := chunkTerm_apply (Scalar.muli 1#32 256#32) x0 x1 x2 (k0_off1 1#32) (k0_off1_inb 1) 256 (by decide) (by decide) (by decide) r d j hj
  have t2 := chunkTerm_apply (Scalar.muli 2#32 256#32) x0 x1 x2 (k0_off1 2#32) (k0_off1_inb 2) 512 (by decide) (by decide) (by decide) r d j hj
  have t3 := chunkTerm_apply (Scalar.muli 3#32 256#32) x0 x1 x2 (k0_off1 3#32) (k0_off1_inb 3) 768 (by decide) (by decide) (by decide) r d j hj
  have t4 := chunkTerm_apply (Scalar.muli 4#32 256#32) x0 x1 x2 (k0_off1 4#32) (k0_off1_inb 4) 1024 (by decide) (by decide) (by decide) r d j hj
  have t5 := chunkTerm_apply (Scalar.muli 5#32 256#32) x0 x1 x2 (k0_off1 5#32) (k0_off1_inb 5) 1280 (by decide) (by decide) (by decide) r d j hj
  have t6 := chunkTerm_apply (Scalar.muli 6#32 256#32) x0 x1 x2 (k0_off1 6#32) (k0_off1_inb 6) 1536 (by decide) (by decide) (by decide) r d j hj
  unfold bodyOut
  rw [pay1_eq, pay6_eq, pay4_eq, pay3_eq, pay2_eq, pay5_eq, pay7_eq, pay8_eq, pay9_eq]
  simp only [addf_apply, broadcast_apply]
  rw [t0, t1, t2, t3, t4, t5, t6]
  show Ideal.ofBits .f32 0x00000000#32 + _ + _ + _ + _ + _ + _ + _ = _
  rw [Ideal.ofBits_zero_f32]
  exact seven_chunks j.val j.isLt _

end Cert.KernelIdeal.Hand

end
-- ==== Proof.KValue.lean ====
/-
  The kernel program's result as one function of its arguments. At grid point t the body leaves in the output block,
  at (r, d), the sum over the seven vocabulary chunks of the one-hot products with the table's high and low parts;
  with the token's row number j below 1726 this is high[j, d] + low[j, d], the high part is the fused table itself
  (a change of float format is the identity on the extended reals), and the low part, table - table over real
  entries, is zero. Point t's block is rows 1024 t … 1024 t + 1023 of the flat result, the 256 blocks cover it, and the
  reshape after the region reads row 8192 b + s at (b, s): the result at (b, s, d) is entry d of token (b, s)'s table row.
-/
import proofs.«401078_j56676388438136_3_alg».proof.Proof.Spec
import proofs.«401078_j56676388438136_3_alg».proof.Proof.KTerm
import proofs.«401078_j56676388438136_3_alg».proof.Proof.KFrame
import proofs.«401078_j56676388438136_3_alg».proof.Proof.KBody
import proofs.«401078_j56676388438136_3_alg».proof.Proof.KHost
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- The flat result over a row-number array I and a table T: row n holds the table row of token n = 8192 b + s. -/
def flatOf (I : IVec S32x8192 32) (T : Vec Ideal S1726x512 .f32) : Vec Ideal S262144x512 .f32 := fun i =>
  T (ix2 (Cert.Fused.rowAt I ⟨(i 0).val / 8192, by have := idx2_lt0 i; omega⟩ ⟨(i 0).val % 8192, Nat.mod_lt _ (by norm_num)⟩) (i 1))

/-- Row 8192 b + s of the flat result is token (b, s)'s table row. -/
theorem flatOf_apply (I : IVec S32x8192 32) (T : Vec Ideal S1726x512 .f32) (n : Fin 262144) (d : Fin 512) (b : Fin 32) (s : Fin 8192)
    (hn : n.val = 8192 * b.val + s.val) : flatOf I T (ix2 n d) = T (ix2 (Cert.Fused.rowAt I b s) d) := by
  have hb : b.val < 32 := b.isLt
  have hs : s.val < 8192 := s.isLt
  have e1 : (⟨n.val / 8192, by omega⟩ : Fin 32) = b := Fin.ext (by show n.val / 8192 = b.val; omega)
  have e2 : (⟨n.val % 8192, Nat.mod_lt _ (by norm_num)⟩ : Fin 8192) = s := Fin.ext (by show n.val % 8192 = s.val; omega)
  show T (ix2 (Cert.Fused.rowAt I ⟨n.val / 8192, _⟩ ⟨n.val % 8192, _⟩) d) = _
  rw [e1, e2]

/-- On a row number below 1726 the selected row is the row number itself. -/
theorem rowAt_eq (I : IVec S32x8192 32) (b : Fin 32) (s : Fin 8192) (h : (I (ix2 b s)).toNat < 1726) :
    Cert.Fused.rowAt I b s = ⟨(I (ix2 b s)).toNat, h⟩ := Fin.ext (Nat.mod_eq_of_lt h)

/-- The body's value at one entry, from the three blocks: with the token's row number w below 1726, the high block
    holding the table's row w at column d and the low block holding zero there, the stored value is the table's entry. -/
theorem point_value (x0 : Vec Ideal S1024x1 .i32) (x1 x2 : Vec Ideal S1792x512 .bf16) (T : Vec Ideal S1726x512 .f32)
    (r : Fin 1024) (d : Fin 512) (w : BitVec 32) (hw : w.toNat < 1726) (h0 : x0 (ix2 r (0 : Fin 1)) = w)
    (h1 : x1 (ix2 (⟨w.toNat, by omega⟩ : Fin 1792) d) = T (ix2 (⟨w.toNat, hw⟩ : Fin 1726) d))
    (h2 : x2 (ix2 (⟨w.toNat, by omega⟩ : Fin 1792) d) = (0 : EReal)) :
    bodyOut (F := Ideal) x0 x1 x2 (ix2 r d) = T (ix2 (⟨w.toNat, hw⟩ : Fin 1726) d) := by
  rw [bodyOut_apply x0 x1 x2 r d ⟨w.toNat, by omega⟩ (by rw [h0]), h1, h2, add_zero]

/-- The flat result of this run. -/
abbrev flat (c : Dev nD) : Vec Ideal S262144x512 .f32 := flatOf (idx m c) (tab m c)

/-- The printed index maps, decided over the grid: the token column and the output move with the point, the two table
    windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 256 := by
  have h := t.isLt
  have hN : cfg0.N = 256 := N_0
  omega

/-- The token column's block at point t is rows 1024 t … 1024 t + 1023 of the column. -/
theorem iblk0_apply (c : Dev nD) (t : Fin cfg0.N) (r : Fin 1024) (n : Fin 262144) (hn : n.val = 1024 * t.val + r.val) :
    (iblk m c 0 t : Vec Ideal S1024x1 .i32) (ix2 r (0 : Fin 1)) = (V m c main_v10 : Vec Ideal S262144x1 .i32) (ix2 n (0 : Fin 1)) := by
  obtain ⟨e00, e01, -⟩ := idx_facts t
  unfold iblk
  rw [View.read_apply]
  show V m c main_v10 _ = V m c main_v10 _
  congr 1
  funext a
  apply Fin.ext
  match a with
  | ⟨0, _⟩ => show win0_0.index t 0 * 1024 + 1 * r.val = n.val; rw [e00, hn]; omega
  | ⟨1, _⟩ => show win0_0.index t 1 * 1 + 1 * 0 = 0; rw [e01]

/-- The table windows hold the whole table at every point. -/
theorem iblk1_apply (c : Dev nD) (t : Fin cfg0.N) (j : Fin 1792) (d : Fin 512) :
    (iblk m c 1 t : Vec Ideal S1792x512 .bf16) (ix2 j d) = (V m c main_v3 : Vec Ideal S1792x512 .bf16) (ix2 j d) := by
  obtain ⟨-, -, e10, e11, -⟩ := idx_facts t
  unfold iblk
  rw [View.read_apply]
  show V m c main_v3 _ = V m c main_v3 _
  congr 1
  funext a
  apply Fin.ext
  match a with
  | ⟨0, _⟩ => show win0_1.index t 0 * 1792 + 1 * j.val = j.val; rw [e10]; omega
  | ⟨1, _⟩ => show win0_1.index t 1 * 512 + 1 * d.val = d.val; rw [e11]; omega

theorem iblk2_apply (c : Dev nD) (t : Fin cfg0.N) (j : Fin 1792) (d : Fin 512) :
    (iblk m c 2 t : Vec Ideal S1792x512 .bf16) (ix2 j d) = (V m c main_v6 : Vec Ideal S1792x512 .bf16) (ix2 j d) := by
  obtain ⟨-, -, -, -, e20, e21, -⟩ := idx_facts t
  unfold iblk
  rw [View.read_apply]
  show V m c main_v6 _ = V m c main_v6 _
  congr 1
  funext a
  apply Fin.ext
  match a with
  | ⟨0, _⟩ => show win0_2.index t 0 * 1792 + 1 * j.val = j.val; rw [e20]; omega
  | ⟨1, _⟩ => show win0_2.index t 1 * 512 + 1 * d.val = d.val; rw [e21]; omega

/-- The token column's entry r at point t is the row number of token 1024 t + r = 8192 b + s. -/
theorem id_at (c : Dev nD) (hrows : Cert.Fused.RowsOk (idx m c)) (t : Fin cfg0.N) (r : Fin 1024) (b : Fin 32) (s : Fin 8192)
    (hbs : 1024 * t.val + r.val = 8192 * b.val + s.val) :
    (iblk m c 0 t : Vec Ideal S1024x1 .i32) (ix2 r (0 : Fin 1)) = idx m c (ix2 b s) := by
  have hr : r.val < 1024 := r.isLt
  have ht : t.val < 256 := t_lt t
  have hb : b.val < 32 := b.isLt
  have hs : s.val < 8192 := s.isLt
  have hnlt : 1024 * t.val + r.val < 262144 := by omega
  refine (iblk0_apply m c t r ⟨1024 * t.val + r.val, hnlt⟩ rfl).trans
    ((V_ids m c hrows ⟨1024 * t.val + r.val, hnlt⟩).trans (congrArg (idx m c) ?_))
  funext a
  apply Fin.ext
  match a with
  | ⟨0, _⟩ => show (1024 * t.val + r.val) / 8192 = b.val; omega
  | ⟨1, _⟩ => show (1024 * t.val + r.val) % 8192 = s.val; omega

/-- The high table block holds the fused table on its first 1726 rows, at every point. -/
theorem hi_at (c : Dev nD) (t : Fin cfg0.N) (j : Fin 1792) (hj : j.val < 1726) (d : Fin 512) :
    (iblk m c 1 t : Vec Ideal S1792x512 .bf16) (ix2 j d) = tab m c (ix2 (⟨j.val, hj⟩ : Fin 1726) d) :=
  (iblk1_apply m c t j d).trans (V_hi m c ⟨j.val, hj⟩ d)

/-- The low table block is zero, at every point. -/
theorem lo_at (c : Dev nD) (hreal : Cert.Fused.AllReal (tab m c)) (t : Fin cfg0.N) (j : Fin 1792) (d : Fin 512) :
    (iblk m c 2 t : Vec Ideal S1792x512 .bf16) (ix2 j d) = (0 : EReal) :=
  (iblk2_apply m c t j d).trans (V_lo m c hreal j d)

/-- What point t writes back is block t of the flat result. -/
theorem flushed3_eq (hrows : ∀ c, Cert.Fused.RowsOk (idx m c)) (hreal : ∀ c, Cert.Fused.AllReal (tab m c)) (c : Dev nD) (t : Fin cfg0.N) :
    (dats m 0 c).flushed 3 t = ((cfg0.win 3).blk t).view.read (Elt Ideal) (flat m c) := by
  have ht : t.val < 256 := t_lt t
  obtain ⟨-, -, -, -, -, -, e30, e31⟩ := idx_facts t
  show (cfg0.win 3).cut (grid0.coords t) ((dats m 0 c).after 3 t) = _
  rw [after0_3]
  unfold out0_3
  rw [View.canon_unit_zero hz2]
  funext y
  obtain ⟨r, d, rfl⟩ : ∃ (r : Fin 1024) (d : Fin 512), y = ix2 r d := ⟨y 0, y 1, eq_ix2 y⟩
  have hr : r.val < 1024 := r.isLt
  have hnlt : 1024 * t.val + r.val < 262144 := by omega
  have hbs : 1024 * t.val + r.val = 8192 * ((1024 * t.val + r.val) / 8192) + (1024 * t.val + r.val) % 8192 := by omega
  -- the token (b, s) of this entry and its row number w
  obtain ⟨b, hb⟩ : ∃ b : Fin 32, b.val = (1024 * t.val + r.val) / 8192 := ⟨⟨(1024 * t.val + r.val) / 8192, by omega⟩, rfl⟩
  obtain ⟨s, hs⟩ : ∃ s : Fin 8192, s.val = (1024 * t.val + r.val) % 8192 := ⟨⟨(1024 * t.val + r.val) % 8192, Nat.mod_lt _ (by norm_num)⟩, rfl⟩
  have hbs' : 1024 * t.val + r.val = 8192 * b.val + s.val := by rw [hb, hs]; exact hbs
  obtain ⟨w, hwdef⟩ : ∃ w : BitVec 32, idx m c (ix2 b s) = w := ⟨_, rfl⟩
  have hw : w.toNat < 1726 := by rw [← hwdef]; exact hrows c (ix2 b s)
  have he : ((cfg0.win 3).blk t).view.emb (ix2 r d) = (ix2 (⟨1024 * t.val + r.val, hnlt⟩ : Fin 262144) d : S262144x512.Idx) := by
    funext a
    apply Fin.ext
    match a with
    | ⟨0, _⟩ => show win0_3.index t 0 * 1024 + 1 * r.val = 1024 * t.val + r.val; rw [e30]; omega
    | ⟨1, _⟩ => show win0_3.index t 1 * 512 + 1 * d.val = d.val; rw [e31]; omega
  show (bodyOut (F := Ideal) (iblk m c 0 t) (iblk m c 1 t) (iblk m c 2 t) : Vec Ideal S1024x512 .f32) (ix2 r d) = flat m c (((cfg0.win 3).blk t).view.emb (ix2 r d))
  rw [he]
  refine (point_value (iblk m c 0 t) (iblk m c 1 t) (iblk m c 2 t) (tab m c) r d w hw
    ((id_at m c (hrows c) t r b s hbs').trans hwdef) (hi_at m c t ⟨w.toNat, by omega⟩ hw d) (lo_at m c (hreal c) t ⟨w.toNat, by omega⟩ d)).trans ?_
  refine Eq.symm ((flatOf_apply (idx m c) (tab m c) ⟨1024 * t.val + r.val, hnlt⟩ d b s hbs').trans ?_)
  rw [rowAt_eq (idx m c) b s (by rw [hwdef]; exact hw)]
  subst hwdef
  rfl

/-- An index of the flat result is in point t's block iff its row lies in the block's 1024 rows. -/
theorem mem_blk3 (t : Fin cfg0.N) (i : S262144x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v11).slice (win0_3.rect t)).set ↔ _
  rw [View.set_slice_whole, Rect.mem_set_unit]
  exact Iff.rfl

/-- Every row of the flat result is in the block of point row / 1024. -/
theorem cover3 (i : S262144x512.Idx) : ∃ t : Fin cfg0.N, (cfg0.win 3).flush t = true ∧ i ∈ ((cfg0.win 3).blk t).view.set := by
  have hi0 : (i 0).val < 262144 := idx2_lt0 i
  have hi1 : (i 1).val < 512 := idx2_lt1 i
  have hN : cfg0.N = 256 := N_0
  obtain ⟨-, -, -, -, -, -, e30, e31⟩ := idx_facts (⟨(i 0).val / 1024, by rw [hN]; omega⟩ : Fin cfg0.N)
  refine ⟨⟨(i 0).val / 1024, by rw [hN]; omega⟩, flush0_3 _, ?_⟩
  rw [mem_blk3]
  intro a
  match a with
  | ⟨0, _⟩ =>
    show win0_3.index _ 0 * 1024 ≤ (i 0).val ∧ (i 0).val < win0_3.index _ 0 * 1024 + 1024
    rw [e30]
    show (i 0).val / 1024 * 1024 ≤ (i 0).val ∧ (i 0).val < (i 0).val / 1024 * 1024 + 1024
    omega
  | ⟨1, _⟩ =>
    show win0_3.index _ 1 * 512 ≤ (i 1).val ∧ (i 1).val < win0_3.index _ 1 * 512 + 512
    rw [e31]
    omega

/-- The output array after the region is the flat result. -/
theorem final3 (hrows : ∀ c, Cert.Fused.RowsOk (idx m c)) (hreal : ∀ c, Cert.Fused.AllReal (tab m c)) (c : Dev nD) :
    (dats m 0 c).arrAt 3 cfg0.N = flat m c :=
  (dats m 0 c).arrAt_eq_of_cover 3 (flat m c) (fun t _ => flushed3_eq m hrows hreal c t) (cover3)

/-- The reshape after the region reads row 8192 b + s of the flat result at (b, s). -/
theorem tail_v12 (hrows : ∀ c, Cert.Fused.RowsOk (idx m c)) (hreal : ∀ c, Cert.Fused.AllReal (tab m c)) (c : Dev nD) :
    Pipeline.afterTail₀ cfgs (dats m) 0 (V0 m) [hostOps1] c main_v12 = Cert.Fused.G (idx m c) (tab m c) := by
  funext i
  obtain ⟨b, s, d, rfl⟩ : ∃ (b : Fin 32) (s : Fin 8192) (d : Fin 512), i = ix3 b s d := ⟨i 0, i 1, i 2, eq_ix3 i⟩
  have hb : b.val < 32 := b.isLt
  have hs : s.val < 8192 := s.isLt
  unfold Pipeline.afterTail₀
  show (StableHlo.after hostOps1 _ (Proc.devRef .tc main_v12) : Vec Ideal S32x8192x512 .f32) (ix3 b s d) = _
  after_results
  show shapeCast S32x8192x512 (Pipeline.withArrays spec0 c (V0 m c) (fun w => (dats m 0 c).arrAt w cfg0.N) (Proc.devRef .tc (Pipeline.arrRef spec0 3))) _ (ix3 b s d) = _
  rw [Pipeline.withArrays_arr spec0 launch0.win.arr_inj c _ _ 3, final3 m hrows hreal c]
  refine (shapeCast_apply _ _ (ix3 b s d) (ix2 (⟨8192 * b.val + s.val, by omega⟩ : Fin 262144) d) ?_).trans ?_
  · rw [Shape.rowMajor_val_two, Shape.rowMajor_val_three]
    show (8192 * b.val + s.val) * 512 + d.val = (b.val * 8192 + s.val) * 512 + d.val
    omega
  · rw [Cert.Fused.G_apply]
    exact flatOf_apply (idx m c) (tab m c) ⟨8192 * b.val + s.val, by omega⟩ d b s rfl

/-- The kernel program's run, read: the result at the embedding of the row numbers, the arguments unchanged. -/
theorem run (hrows : ∀ c, Cert.Fused.RowsOk (idx m c)) (hreal : ∀ c, Cert.Fused.AllReal (tab m c)) :
    θ_run defs (onTc (τ := τ) (main (F := Ideal))) ⟨m, fun _ => 0, ρ⟩ (fun r => ∀ c : Dev nD,
      r.2.mem ((c.tc : Thread nD τ).loc main_v12) = Cert.Fused.G (idx m c) (tab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v12 (Pipeline.mem_restRefs_of main_v12 (by decide) (by decide))).trans (tail_v12 m hrows hreal c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Hand

end
-- ==== Proof.PreFacts.lean ====
/-
  The added precondition, read back as facts about the fourteen input arrays.

  The predicate is one bit: the conjunction of fourteen tests, each of which asks something of EVERY entry of
  one array (an "and" over all entries, started from 1). For each of the twelve float arrays the entry test is
  |x| < +infinity; over the extended reals |x| is max x (-x), so the test excludes both infinities and leaves a real
  number. For the token ids the entry test is 0 <= x and x < 1725, for the flat map 0 <= x and x < 1726, both read as
  signed 32-bit words; a word that is nonnegative as a signed number has its top bit clear, so its unsigned value is its
  signed value, and the signed bound is a bound on the unsigned value.

  The conjunction being 1 makes every test 1; an "and" over all entries being 1 makes every entry's bit 1; the entry's
  bit being 1 is the inequality.
-/
import proofs.«401078_j56676388438136_3_alg».proof.Pre_finite_inputs
import proofs.«401078_j56676388438136_3_alg».proof.Proof.Gen.Pre_finite_inputs
import proofs.«401078_j56676388438136_3_alg».proof.Proof.Spec
import Idealize.ShloMosaic.Lib.ReduceAll
import Idealize.ShloMosaic.Lib.ValueIdx

noncomputable section

namespace Cert.Pre_finite_inputs.Hand

open Idealize.ShloMosaic Cert.Pre_finite_inputs Cert.Pre_finite_inputs.Facts

/-- The shape with no axes has one index. -/
instance subsingleton_scalar_idx : Subsingleton S_.Idx := ⟨fun a b => funext fun d => d.elim0⟩

/-! ## One entry -/

/-- The word 0x7F800000 is +infinity. -/
theorem inf_word : Ideal.ofBits .f32 0x7F800000#32 = (⊤ : EReal) := by simp [Ideal.ofBits, Ideal.ieee]

/-- An extended real whose absolute value max x (-x) is below +infinity is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  rw [max_lt_iff] at hlt
  induction x using EReal.rec with
  | bot => exact absurd hlt.2 (by simp)
  | coe r => exact ⟨r, rfl⟩
  | top => exact absurd hlt.1 (by simp)

/-- A 32-bit word that is at least 0 and below n as a signed number (n below 2^31) is below n as an unsigned one. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have g0 : (0 : Int) ≤ w.toInt := by
    have := IntOp.cmpi_sge.1 h0
    rwa [show (0#32 : BitVec 32).toInt = 0 from by decide] at this
  have g1 := IntOp.cmpi_slt.1 h1
  have hw : 2 * w.toNat < 2 ^ 32 := BitVec.toInt_pos_iff.1 g0
  have hnn : 2 * (BitVec.ofNat 32 n).toNat < 2 ^ 32 := by rw [BitVec.toNat_ofNat]; omega
  rw [BitVec.toInt_eq_toNat_of_lt hw, BitVec.toInt_eq_toNat_of_lt hnn, BitVec.toNat_ofNat] at g1
  omega

/-! ## One array -/

/-- A float array of any shape: if "every entry has |x| < +infinity" came out 1, every entry is a real number. -/
theorem allReal_of_test {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) :
    Cert.Fused.AllReal x := by
  intro i
  exact real_of_abs_lt_inf (x i) (Host.reduce_andi_all _ _ hr hu j e i)

/-- An integer array of any shape: if "every entry has 0 <= x and x < n, signed" came out 1 (n below 2^31), every entry
    is below n unsigned. -/
theorem lt_of_test {s : Shape} {axes : List (Fin s.rank)} (x : IVec s 32) (n : Nat) (hn : n < 2 ^ 31)
    (hb : S_.BroadcastsInDim s (![] : Fin 0 → Fin s.rank)) (hr : s.ReducesTo axes S_) (hu : 0 < S_.numel) (j : S_.Idx)
    (e : Host.reduce IntOp.andi
        (andi (cmpi .sge x (broadcastInDim s ![] hb (constantI S_ 32 0#32)))
          (cmpi .slt x (broadcastInDim s ![] hb (constantI S_ 32 (BitVec.ofNat 32 n)))))
        (constantI S_ 1 1#1) hr hu j = 1#1) (i : s.Idx) :
    (x i).toNat < n := by
  have hi := Host.reduce_andi_all _ _ hr hu j e i
  obtain ⟨h0, h1⟩ := IntOp.andi_eq_one.1 hi
  exact toNat_lt_of_signed (x i) n hn h0 h1

/-! ## The fourteen arrays -/

/-- The precondition gives: token ids below 1725 and flat-map entries below 1726 (unsigned), and every entry of each
    of the twelve float arrays a real number. The predicate's one bit is read at its one index; the fourteen tests are
    its conjuncts in the order the float arrays, then the token ids, then the flat map. -/
theorem facts_of_pre (a0 : IVec S32x8192 32) (a1 : IVec S1725 32) (a2 : FVec Ideal S3x512 .f32)
    (a3 : FVec Ideal S9x512 .f32) (a4 : FVec Ideal S512x512 .f32) (a5 : FVec Ideal S128x512 .f32)
    (a6 : FVec Ideal S32x512 .f32) (a7 : FVec Ideal S129x512 .f32) (a8 : FVec Ideal S16x512 .f32)
    (a9 a10 a11 : FVec Ideal S128x512 .f32) (a12 : FVec Ideal S512x512 .f32) (a13 : FVec Ideal S512 .f32)
    (h : Cert.Pre_finite_inputs.fn (F := Ideal) a0 a1 a2 a3 a4 a5 a6 a7 a8 a9 a10 a11 a12 a13 = fun _ => 1#1) :
    Cert.Fused.InRange a0 a1 ∧ Cert.Fused.AllReal a2 ∧ Cert.Fused.AllReal a3 ∧ Cert.Fused.AllReal a4 ∧
      Cert.Fused.AllReal a5 ∧ Cert.Fused.AllReal a6 ∧ Cert.Fused.AllReal a7 ∧ Cert.Fused.AllReal a8 ∧
      Cert.Fused.AllReal a9 ∧ Cert.Fused.AllReal a10 ∧ Cert.Fused.AllReal a11 ∧ Cert.Fused.AllReal a12 ∧
      Cert.Fused.AllReal a13 := by
  have e := congrFun h ValueIdx.ix0
  dsimp only [fn, fn_part1, fn_part2, fn_part3, fn_part4] at e
  dsimp only [andi] at e
  simp only [IntOp.andi_eq_one] at e
  obtain ⟨⟨⟨⟨⟨⟨⟨⟨⟨⟨⟨⟨⟨e2, e3⟩, e4⟩, e5⟩, e6⟩, e7⟩, e8⟩, e9⟩, e10⟩, e11⟩, e12⟩, e13⟩, e0⟩, e1⟩ := e
  have hids : ∀ i, (a0 i).toNat < 1725 := lt_of_test a0 1725 (by norm_num) _ _ _ _ e0
  have hmap : ∀ i, (a1 i).toNat < 1726 := lt_of_test a1 1726 (by norm_num) _ _ _ _ e1
  have hin : Cert.Fused.InRange a0 a1 := And.intro hids hmap
  exact ⟨hin, allReal_of_test a2 _ _ _ _ e2, allReal_of_test a3 _ _ _ _ e3, allReal_of_test a4 _ _ _ _ e4,
    allReal_of_test a5 _ _ _ _ e5, allReal_of_test a6 _ _ _ _ e6, allReal_of_test a7 _ _ _ _ e7,
    allReal_of_test a8 _ _ _ _ e8, allReal_of_test a9 _ _ _ _ e9, allReal_of_test a10 _ _ _ _ e10,
    allReal_of_test a11 _ _ _ _ e11, allReal_of_test a12 _ _ _ _ e12, allReal_of_test a13 _ _ _ _ e13⟩

end Cert.Pre_finite_inputs.Hand

end
-- ==== Proof.RefRun.lean ====
/-
  The reference program's run. Its entry function is a straight line: the last table's broadcast to one row,
  the twelve tables stacked along the row axis, then two module-local functions called in turn. The first takes
  the flat map at the token ids (a negative id wrapped once, an id outside the map answered by the smallest
  integer); the second takes the rows of the fused table at those row numbers (a negative row number wrapped
  once, a row number outside the table answered by the fill value). With each call unfolded at the call's own
  buffers the program is one list of forty-seven operations. Every weakly fair execution of it terminates with
  the result buffer at the composed pure term of the fourteen arguments, and the arguments unchanged.

  The result is read stretch by stretch: what the buffers hold after the whole list is what they hold after the
  second call's operations, run from what they hold after the first call's, run from what they hold after the
  entry function's own two. Each stretch writes one value that a later stretch reads, as a pure function of
  values the earlier stretches left alone.
-/
import proofs.«401078_j56676388438136_3_alg».proof.Proof.RTerm
import proofs.«401078_j56676388438136_3_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The operations -/

/-- The entry function's forty-seven operations in order, the two calls (and the select each of them calls in
    turn) unfolded at the calls' own buffers. -/
abbrev ops : List (HloOp τ sig (Elt F)) :=
  [ unary main_arg13 main_v0 (broadcastInDim S1x512 ![1] bcast_S512_S1x512_1 : (⟨S512, .f32⟩ : BufTy).Contents (Elt F) → (⟨S1x512, .f32⟩ : BufTy).Contents (Elt F)),
    nary ![main_arg2, main_arg3, main_arg4, main_arg5, main_arg6, main_arg7, main_arg8, main_arg9, main_arg10, main_arg11, main_arg12, main_v0] main_v1 (fun u => concatenate S1726x512 0 [⟨S3x512, u 0⟩, ⟨S9x512, u 1⟩, ⟨S512x512, u 2⟩, ⟨S128x512, u 3⟩, ⟨S32x512, u 4⟩, ⟨S129x512, u 5⟩, ⟨S16x512, u 6⟩, ⟨S128x512, u 7⟩, ⟨S128x512, u 8⟩, ⟨S128x512, u 9⟩, ⟨S512x512, u 10⟩, ⟨S1x512, u 11⟩] concatenates_S3x512_S9x512_S512x512_S128x512_S32x512_S129x512_S16x512_S128x512_S128x512_S128x512_S512x512_S1x512_S1726x512_d0),
    TRef.nullary main_call0.c (constantI S_ 32 0#32),
    TRef.unary main_call0.c main_call0.v0 (broadcastInDim S32x8192 ![] bcast_S_S32x8192),
    TRef.binary (.of main_arg0) main_call0.v0 main_call0.v1 (cmpi .slt),
    TRef.nullary main_call0.c_0 (constantI S_ 32 1725#32),
    TRef.unary main_call0.c_0 main_call0.v2 (broadcastInDim S32x8192 ![] bcast_S_S32x8192),
    TRef.binary (.of main_arg0) main_call0.v2 main_call0.v3 addi,
    TRef.ternary main_call0.v1 main_call0.v3 (.of main_arg0) main_call0.call0.v0 select,
    TRef.unary main_call0.call0.v0 main_call0.v5 (broadcastInDim S32x8192x1 ![0, 1] bcast_S32x8192_S32x8192x1_0_1),
    TRef.nullary main_call0.c_1 (constantI S1 32 1724#32),
    TRef.nullary main_call0.c_2 (constantI S_ 32 0#32),
    TRef.unary main_call0.c_2 main_call0.v6 (broadcastInDim S32x8192x1 ![] bcast_S_S32x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x8192x1 ![0, 1, 2] bcast_S1x1x1_S32x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x8192x1_S32x8192_d2 h_S_),
    TRef.binary (.of main_arg1) main_call0.v5 main_call0.v13 (fun x i => Host.gather gather_S1725_S32x8192x1_S32x8192_n_0_n_n_0_2_1 x i),
    TRef.nullary main_call0.c_4 (constantI S_ 32 2147483648#32),
    TRef.unary main_call0.c_4 main_call0.v14 (broadcastInDim S32x8192 ![] bcast_S_S32x8192),
    TRef.ternary main_call0.v12 main_call0.v13 main_call0.v14 main_call0.v15 select,
    TRef.nullary main_call1.c (constantI S_ 32 0#32),
    TRef.unary main_call1.c main_call1.v0 (broadcastInDim S32x8192 ![] bcast_S_S32x8192),
    TRef.binary (.of main_v2) main_call1.v0 main_call1.v1 (cmpi .slt),
    TRef.nullary main_call1.c_0 (constantI S_ 32 1726#32),
    TRef.unary main_call1.c_0 main_call1.v2 (broadcastInDim S32x8192 ![] bcast_S_S32x8192),
    TRef.binary (.of main_v2) main_call1.v2 main_call1.v3 addi,
    TRef.ternary main_call1.v1 main_call1.v3 (.of main_v2) main_call1.call0.v0 select,
    TRef.unary main_call1.call0.v0 main_call1.v5 (broadcastInDim S32x8192x1 ![0, 1] bcast_S32x8192_S32x8192x1_0_1),
    TRef.nullary main_call1.c_1 (constantI S1 32 1725#32),
    TRef.nullary main_call1.c_2 (constantI S_ 32 0#32),
    TRef.unary main_call1.c_2 main_call1.v6 (broadcastInDim S32x8192x1 ![] bcast_S_S32x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S32x8192x1 ![0, 1, 2] bcast_S1x1x1_S32x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x8192x1_S32x8192_d2 h_S_),
    TRef.binary (.of main_v1) main_call1.v5 main_call1.v13 (fun x i => Host.gather gather_S1726x512_S32x8192x1_S32x8192x512_2_0_n_n_0_2_1512 x i),
    TRef.unary main_call1.v12 main_call1.v14 (broadcastInDim S32x8192x512 ![0, 1] bcast_S32x8192_S32x8192x512_0_1),
    TRef.nullary main_call1.cst (constant S_ .f32 0x7FC00000#32),
    TRef.unary main_call1.cst main_call1.v15 (broadcastInDim S32x8192x512 ![] bcast_S_S32x8192x512),
    TRef.ternary main_call1.v14 main_call1.v13 main_call1.v15 main_call1.v16 select ]

/-- The first stretch: the entry function's own two operations, the last table's broadcast to one row and the
    stacking of the twelve. -/
abbrev opsTable : List (HloOp τ sig (Elt F)) :=
  [ unary main_arg13 main_v0 (broadcastInDim S1x512 ![1] bcast_S512_S1x512_1 : (⟨S512, .f32⟩ : BufTy).Contents (Elt F) → (⟨S1x512, .f32⟩ : BufTy).Contents (Elt F)),
    nary ![main_arg2, main_arg3, main_arg4, main_arg5, main_arg6, main_arg7, main_arg8, main_arg9, main_arg10, main_arg11, main_arg12, main_v0] main_v1 (fun u => concatenate S1726x512 0 [⟨S3x512, u 0⟩, ⟨S9x512, u 1⟩, ⟨S512x512, u 2⟩, ⟨S128x512, u 3⟩, ⟨S32x512, u 4⟩, ⟨S129x512, u 5⟩, ⟨S16x512, u 6⟩, ⟨S128x512, u 7⟩, ⟨S128x512, u 8⟩, ⟨S128x512, u 9⟩, ⟨S512x512, u 10⟩, ⟨S1x512, u 11⟩] concatenates_S3x512_S9x512_S512x512_S128x512_S32x512_S129x512_S16x512_S128x512_S128x512_S128x512_S512x512_S1x512_S1726x512_d0) ]

/-- The second stretch: the first call's twenty-two operations, at that call's buffers. -/
abbrev opsTake : List (HloOp τ sig (Elt F)) :=
  [ TRef.nullary main_call0.c (constantI S_ 32 0#32),
    TRef.unary main_call0.c main_call0.v0 (broadcastInDim S32x8192 ![] bcast_S_S32x8192),
    TRef.binary (.of main_arg0) main_call0.v0 main_call0.v1 (cmpi .slt),
    TRef.nullary main_call0.c_0 (constantI S_ 32 1725#32),
    TRef.unary main_call0.c_0 main_call0.v2 (broadcastInDim S32x8192 ![] bcast_S_S32x8192),
    TRef.binary (.of main_arg0) main_call0.v2 main_call0.v3 addi,
    TRef.ternary main_call0.v1 main_call0.v3 (.of main_arg0) main_call0.call0.v0 select,
    TRef.unary main_call0.call0.v0 main_call0.v5 (broadcastInDim S32x8192x1 ![0, 1] bcast_S32x8192_S32x8192x1_0_1),
    TRef.nullary main_call0.c_1 (constantI S1 32 1724#32),
    TRef.nullary main_call0.c_2 (constantI S_ 32 0#32),
    TRef.unary main_call0.c_2 main_call0.v6 (broadcastInDim S32x8192x1 ![] bcast_S_S32x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x8192x1 ![0, 1, 2] bcast_S1x1x1_S32x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x8192x1_S32x8192_d2 h_S_),
    TRef.binary (.of main_arg1) main_call0.v5 main_call0.v13 (fun x i => Host.gather gather_S1725_S32x8192x1_S32x8192_n_0_n_n_0_2_1 x i),
    TRef.nullary main_call0.c_4 (constantI S_ 32 2147483648#32),
    TRef.unary main_call0.c_4 main_call0.v14 (broadcastInDim S32x8192 ![] bcast_S_S32x8192),
    TRef.ternary main_call0.v12 main_call0.v13 main_call0.v14 main_call0.v15 select ]

/-- The third stretch: the second call's twenty-three operations, at that call's buffers. -/
abbrev opsRows : List (HloOp τ sig (Elt F)) :=
  [ TRef.nullary main_call1.c (constantI S_ 32 0#32),
    TRef.unary main_call1.c main_call1.v0 (broadcastInDim S32x8192 ![] bcast_S_S32x8192),
    TRef.binary (.of main_v2) main_call1.v0 main_call1.v1 (cmpi .slt),
    TRef.nullary main_call1.c_0 (constantI S_ 32 1726#32),
    TRef.unary main_call1.c_0 main_call1.v2 (broadcastInDim S32x8192 ![] bcast_S_S32x8192),
    TRef.binary (.of main_v2) main_call1.v2 main_call1.v3 addi,
    TRef.ternary main_call1.v1 main_call1.v3 (.of main_v2) main_call1.call0.v0 select,
    TRef.unary main_call1.call0.v0 main_call1.v5 (broadcastInDim S32x8192x1 ![0, 1] bcast_S32x8192_S32x8192x1_0_1),
    TRef.nullary main_call1.c_1 (constantI S1 32 1725#32),
    TRef.nullary main_call1.c_2 (constantI S_ 32 0#32),
    TRef.unary main_call1.c_2 main_call1.v6 (broadcastInDim S32x8192x1 ![] bcast_S_S32x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S32x8192x1 ![0, 1, 2] bcast_S1x1x1_S32x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x8192x1_S32x8192_d2 h_S_),
    TRef.binary (.of main_v1) main_call1.v5 main_call1.v13 (fun x i => Host.gather gather_S1726x512_S32x8192x1_S32x8192x512_2_0_n_n_0_2_1512 x i),
    TRef.unary main_call1.v12 main_call1.v14 (broadcastInDim S32x8192x512 ![0, 1] bcast_S32x8192_S32x8192x512_0_1),
    TRef.nullary main_call1.cst (constant S_ .f32 0x7FC00000#32),
    TRef.unary main_call1.cst main_call1.v15 (broadcastInDim S32x8192x512 ![] bcast_S_S32x8192x512),
    TRef.ternary main_call1.v14 main_call1.v13 main_call1.v15 main_call1.v16 select ]

-- forty-seven binds re-associated: the rewriting under the chain recurses once per statement
set_option maxRecDepth 2048 in
/-- The entry function is that straight line: the functions' definitions unfolded at their calls and the records
    at their fields, both sides are one chain of steps once sequencing is reassociated. -/
theorem main_eq (c : Dev nD) : main (F := F) c = seq ops := by
  simp only [main, fn_take.body, fn_where.body, fn_take_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., nary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the buffers hold afterwards, stretch by stretch -/

/-- The whole line's fold is the three stretches' folds in turn (the same operations, regrouped). -/
theorem ops_split (V : Valuation τ sig (Elt F)) : after ops V = after opsRows (after opsTake (after opsTable V)) := rfl

/-- After the first stretch the stacked buffer holds the fused table of the twelve table arguments. -/
theorem table_out (V : Valuation τ sig (Elt F)) :
    after opsTable V (main_v1 : DevRef τ sig)
      = table (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) := by
  after_results
  rfl

/-- The first stretch leaves the token ids alone. -/
theorem table_keep_arg0 (V : Valuation τ sig (Elt F)) :
    after opsTable V (main_arg0 : DevRef τ sig) = V (main_arg0 : DevRef τ sig) := by
  after_results_simp

/-- The first stretch leaves the flat map alone. -/
theorem table_keep_arg1 (V : Valuation τ sig (Elt F)) :
    after opsTable V (main_arg1 : DevRef τ sig) = V (main_arg1 : DevRef τ sig) := by
  after_results_simp

/-- After the second stretch its result buffer holds the row numbers: the flat map taken at the token ids. The
    typed references' transports are along equations that hold by computation, so they are the identity. -/
theorem take_out (V : Valuation τ sig (Elt F)) :
    after opsTake V (main_v2 : DevRef τ sig) = takeRow (V (main_arg1 : DevRef τ sig)) (V (main_arg0 : DevRef τ sig)) := by
  after_results_simp
  simp only [TRef.toBuf, TRef.ofBuf, cast_eq, takeRow]

/-- The second stretch leaves the fused table alone. -/
theorem take_keep_v1 (V : Valuation τ sig (Elt F)) :
    after opsTake V (main_v1 : DevRef τ sig) = V (main_v1 : DevRef τ sig) := by
  after_results_simp

/-- After the third stretch the result buffer holds the rows of the table buffer at the row-number buffer. -/
theorem rows_out (V : Valuation τ sig (Elt F)) :
    after opsRows V (main_v3 : DevRef τ sig) = gatherRows (V (main_v1 : DevRef τ sig)) (V (main_v2 : DevRef τ sig)) := by
  after_results_simp
  simp only [TRef.toBuf, TRef.ofBuf, cast_eq, gatherRows]

/-- After the whole line the result buffer holds the reference's term of the fourteen arguments. -/
theorem out_eq (V : Valuation τ sig (Elt F)) :
    after ops V (main_v3 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) (V (main_arg13 : DevRef τ sig)) := by
  rw [ops_split, rows_out, take_keep_v1, take_out, table_out, table_keep_arg0, table_keep_arg1]
  rfl

/-! ## The arguments are left alone: no operation of the line writes an argument's buffer -/

theorem keep_arg0 (V : Valuation τ sig (Elt F)) : after ops V (main_arg0 : DevRef τ sig) = V (main_arg0 : DevRef τ sig) := by
  after_results_simp
theorem keep_arg1 (V : Valuation τ sig (Elt F)) : after ops V (main_arg1 : DevRef τ sig) = V (main_arg1 : DevRef τ sig) := by
  after_results_simp
theorem keep_arg2 (V : Valuation τ sig (Elt F)) : after ops V (main_arg2 : DevRef τ sig) = V (main_arg2 : DevRef τ sig) := by
  after_results_simp
theorem keep_arg3 (V : Valuation τ sig (Elt F)) : after ops V (main_arg3 : DevRef τ sig) = V (main_arg3 : DevRef τ sig) := by
  after_results_simp
theorem keep_arg4 (V : Valuation τ sig (Elt F)) : after ops V (main_arg4 : DevRef τ sig) = V (main_arg4 : DevRef τ sig) := by
  after_results_simp
theorem keep_arg5 (V : Valuation τ sig (Elt F)) : after ops V (main_arg5 : DevRef τ sig) = V (main_arg5 : DevRef τ sig) := by
  after_results_simp
theorem keep_arg6 (V : Valuation τ sig (Elt F)) : after ops V (main_arg6 : DevRef τ sig) = V (main_arg6 : DevRef τ sig) := by
  after_results_simp
theorem keep_arg7 (V : Valuation τ sig (Elt F)) : after ops V (main_arg7 : DevRef τ sig) = V (main_arg7 : DevRef τ sig) := by
  after_results_simp
theorem keep_arg8 (V : Valuation τ sig (Elt F)) : after ops V (main_arg8 : DevRef τ sig) = V (main_arg8 : DevRef τ sig) := by
  after_results_simp
theorem keep_arg9 (V : Valuation τ sig (Elt F)) : after ops V (main_arg9 : DevRef τ sig) = V (main_arg9 : DevRef τ sig) := by
  after_results_simp
theorem keep_arg10 (V : Valuation τ sig (Elt F)) : after ops V (main_arg10 : DevRef τ sig) = V (main_arg10 : DevRef τ sig) := by
  after_results_simp
theorem keep_arg11 (V : Valuation τ sig (Elt F)) : after ops V (main_arg11 : DevRef τ sig) = V (main_arg11 : DevRef τ sig) := by
  after_results_simp
theorem keep_arg12 (V : Valuation τ sig (Elt F)) : after ops V (main_arg12 : DevRef τ sig) = V (main_arg12 : DevRef τ sig) := by
  after_results_simp
theorem keep_arg13 (V : Valuation τ sig (Elt F)) : after ops V (main_arg13 : DevRef τ sig) = V (main_arg13 : DevRef τ sig) := by
  after_results_simp

/-! ## The run -/

/-- On every device, for any float values, from any memory with zero counters: every weakly fair execution of the
    entry function terminates with the result buffer at the reference's term of the arguments' launch contents
    and every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v3)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
      ⟨(h c main_v3).trans (out_eq _),
        (h c main_arg0).trans (keep_arg0 _), (h c main_arg1).trans (keep_arg1 _), (h c main_arg2).trans (keep_arg2 _),
        (h c main_arg3).trans (keep_arg3 _), (h c main_arg4).trans (keep_arg4 _), (h c main_arg5).trans (keep_arg5 _),
        (h c main_arg6).trans (keep_arg6 _), (h c main_arg7).trans (keep_arg7 _), (h c main_arg8).trans (keep_arg8 _),
        (h c main_arg9).trans (keep_arg9 _), (h c main_arg10).trans (keep_arg10 _), (h c main_arg11).trans (keep_arg11 _),
        (h c main_arg12).trans (keep_arg12 _), (h c main_arg13).trans (keep_arg13 _)⟩)
    (run_seq scopedRefs_eq scopedSems_eq defs main (fun _ => ops) main_eq (fun _ => ops_sub) m ρ)

end Cert.ReferenceIdeal.Hand

end
-- ==== Proof.RowRange.lean ====
/-
  The row numbers are rows of the fused table.

  The row-number array is the flat map taken at the token ids: a negative id is wrapped once (the map's extent
  added), the id is tested against the range [0, 1724], and the result is the flat map's entry at the id where the
  test holds and the smallest integer where it fails. With every token id below 1725 the id is not negative as a
  signed word, so the wrap keeps it; both range tests hold, and so does their conjunction over the unit axis; the
  result is therefore an entry of the flat map, and every entry of the flat map is below 1726.
-/
import proofs.«401078_j56676388438136_3_alg».proof.Proof.RTerm
import proofs.«401078_j56676388438136_3_alg».proof.Proof.Spec
import Idealize.ShloMosaic.Lib.ValueIdx
import Idealize.ShloMosaic.Lib.StableHlo.Predicate

noncomputable section

namespace Cert.ReferenceIdeal.Hand

open Idealize.ShloMosaic Idealize.ShloMosaic.ValueIdx Idealize.ShloMosaic.StableHlo.Predicate
open Cert.ReferenceIdeal Cert.ReferenceIdeal.Facts₀ Cert.ReferenceIdeal.Facts

/-! ## Words -/

/-- A word below 2³¹ is not negative as a signed word, so "add the extent where negative" keeps it. -/
private theorem wrap_keep (w c : BitVec 32) (hw : w.toNat < 2 ^ 31) :
    Scalar.select (IntOp.cmpi .slt w 0#32) (IntOp.addi w c) w = w := by
  have h0 : IntOp.cmpi .slt w 0#32 = 0#1 := eq_zero_of_ne_one fun h => by
    have h' := (slt_iff_toNat hw (by decide)).1 h
    exact absurd h' (Nat.not_lt_zero _)
  rw [h0, select_zero]

/-- A word at most `hi`, itself below 2³¹, passes both range tests: it is at least 0 and at most `hi` as a
    signed word. -/
private theorem in_range_bit (w hi : BitVec 32) (hhi : hi.toNat < 2 ^ 31) (hw : w.toNat ≤ hi.toNat) :
    IntOp.andi (IntOp.cmpi .sge w 0#32) (IntOp.cmpi .sle w hi) = 1#1 := by
  rw [(sge_iff_toNat (a := w) (b := 0#32) (by omega) (by decide)).2 (Nat.zero_le _),
    (sle_iff_toNat (a := w) (b := hi) (by omega) hhi).2 hw]
  rfl

/-! ## The conjunction over the unit axis -/

/-- A left fold by `and` that starts at 1 and meets only 1s is 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

/-- A reduction by `and` from the constant 1 of an array whose every element is 1 is 1 at every index. -/
private theorem reduce_andi_ones {s t : Shape} {axes : List (Fin s.rank)} (x : s.Idx → BitVec 1)
    (h : s.ReducesTo axes t) (hu : 0 < S_.numel) (hx : ∀ i, x i = 1#1) (j : t.Idx) :
    Host.reduce IntOp.andi x (constantI S_ 1 1#1) h hu j = 1#1 := by
  rw [Host.reduce_eq_foldl]
  exact foldl_andi_one x _ _ rfl (fun i _ => hx i)

/-! ## The take's steps over any index array -/

/-- Ids that are not negative as signed words come through the wrap unchanged. -/
private theorem wrap_eq (ids : IVec S32x8192 32) (c : BitVec 32) (hid : ∀ k, (ids k).toNat < 2 ^ 31) :
    select (cmpi .slt ids (broadcastInDim S32x8192 ![] bcast_S_S32x8192 (constantI S_ 32 0#32)))
      (addi ids (broadcastInDim S32x8192 ![] bcast_S_S32x8192 (constantI S_ 32 c))) ids = ids :=
  funext fun k => wrap_keep (ids k) c (hid k)

/-- With every id at most `c`, the range test "0 ≤ id ≤ c", taken on the ids with a unit axis added and
    reduced by `and` over that axis, holds at every token. -/
private theorem mask_one (ids : IVec S32x8192 32) (c : BitVec 32) (hc : c.toNat < 2 ^ 31)
    (hid : ∀ k, (ids k).toNat ≤ c.toNat) (i : S32x8192.Idx) :
    Host.reduce IntOp.andi
      (andi
        (cmpi .sge (broadcastInDim S32x8192x1 ![0, 1] bcast_S32x8192_S32x8192x1_0_1 ids)
          (broadcastInDim S32x8192x1 ![] bcast_S_S32x8192x1 (constantI S_ 32 0#32)))
        (cmpi .sle (broadcastInDim S32x8192x1 ![0, 1] bcast_S32x8192_S32x8192x1_0_1 ids)
          (broadcastInDim S32x8192x1 ![0, 1, 2] bcast_S1x1x1_S32x8192x1_0_1_2
            (broadcastInDim S1x1x1 ![2] bcast_S1_S1x1x1_2 (constantI S1 32 c)))))
      (constantI S_ 1 1#1) reducesTo_S32x8192x1_S32x8192_d2 h_S_ i = 1#1 :=
  reduce_andi_ones _ _ _ (fun _ => in_range_bit _ _ hc (hid _)) i

/-! ## The row numbers -/

/-- With token ids below 1725 and flat-map entries below 1726, every row number is below 1726. -/
theorem takeRow_rows (a0 : IVec S32x8192 32) (a1 : IVec S1725 32) (h : Cert.Fused.InRange a0 a1) :
    Cert.Fused.RowsOk (takeRow a1 a0) := by
  obtain ⟨hid, hfm⟩ := h
  intro i
  have e1724 : (1724#32 : BitVec 32).toNat = 1724 := by decide
  unfold takeRow
  dsimp only
  rw [wrap_eq a0 _ (fun k => by have := hid k; omega), select_apply,
    mask_one a0 _ (by decide) (fun k => by have := hid k; omega) i, select_one]
  exact hfm _

end Cert.ReferenceIdeal.Hand

end
-- ==== Proof.RefValue.lean ====
/-
  The reference's result is the embedding of the row numbers in the fused table.

  The rows are gathered from the table at the row numbers: a negative row number is wrapped once (the table's
  extent added), the row number is tested against the range [0, 1725], and the result at (b, s, d) is entry d of
  the table's row at the row number, read signed and clamped into [0, 1725], where the test holds and the fill
  value where it fails. With every row number below 1726 the row number is not negative as a signed word, so the
  wrap keeps it; both range tests hold, and so does their conjunction over the unit axis; the signed reading of
  the row number is its value and the clamp keeps it. So the result at (b, s, d) is entry d of the table's row
  at token (b, s)'s row number.
-/
import proofs.«401078_j56676388438136_3_alg».proof.Proof.RTerm
import proofs.«401078_j56676388438136_3_alg».proof.Proof.Spec
import Idealize.ShloMosaic.Lib.ValueIdx
import Idealize.ShloMosaic.Lib.StableHlo.Predicate

noncomputable section

namespace Cert.ReferenceIdeal.Hand

open Idealize.ShloMosaic Idealize.ShloMosaic.ValueIdx Idealize.ShloMosaic.StableHlo.Predicate
open Cert.ReferenceIdeal Cert.ReferenceIdeal.Facts₀ Cert.ReferenceIdeal.Facts

/-! ## Words -/

/-- A word below 2³¹ is not negative as a signed word, so "add the extent where negative" keeps it. -/
private theorem wrap_keep (w c : BitVec 32) (hw : w.toNat < 2 ^ 31) :
    Scalar.select (IntOp.cmpi .slt w 0#32) (IntOp.addi w c) w = w := by
  have h0 : IntOp.cmpi .slt w 0#32 = 0#1 := eq_zero_of_ne_one fun h => by
    have h' := (slt_iff_toNat hw (by decide)).1 h
    exact absurd h' (Nat.not_lt_zero _)
  rw [h0, select_zero]

/-- A word at most `hi`, itself below 2³¹, passes both range tests: it is at least 0 and at most `hi` as a
    signed word. -/
private theorem in_range_bit (w hi : BitVec 32) (hhi : hi.toNat < 2 ^ 31) (hw : w.toNat ≤ hi.toNat) :
    IntOp.andi (IntOp.cmpi .sge w 0#32) (IntOp.cmpi .sle w hi) = 1#1 := by
  rw [(sge_iff_toNat (a := w) (b := 0#32) (by omega) (by decide)).2 (Nat.zero_le _),
    (sle_iff_toNat (a := w) (b := hi) (by omega) hhi).2 hw]
  rfl

/-! ## The conjunction over the unit axis -/

/-- A left fold by `and` that starts at 1 and meets only 1s is 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

/-- A reduction by `and` from the constant 1 of an array whose every element is 1 is 1 at every index. -/
private theorem reduce_andi_ones {s t : Shape} {axes : List (Fin s.rank)} (x : s.Idx → BitVec 1)
    (h : s.ReducesTo axes t) (hu : 0 < S_.numel) (hx : ∀ i, x i = 1#1) (j : t.Idx) :
    Host.reduce IntOp.andi x (constantI S_ 1 1#1) h hu j = 1#1 := by
  rw [Host.reduce_eq_foldl]
  exact foldl_andi_one x _ _ rfl (fun i _ => hx i)

/-! ## The gather's first steps over any index array -/

/-- Row numbers that are not negative as signed words come through the wrap unchanged. -/
private theorem wrap_eq (ids : IVec S32x8192 32) (c : BitVec 32) (hid : ∀ k, (ids k).toNat < 2 ^ 31) :
    select (cmpi .slt ids (broadcastInDim S32x8192 ![] bcast_S_S32x8192 (constantI S_ 32 0#32)))
      (addi ids (broadcastInDim S32x8192 ![] bcast_S_S32x8192 (constantI S_ 32 c))) ids = ids :=
  funext fun k => wrap_keep (ids k) c (hid k)

/-- With every row number at most `c`, the range test "0 ≤ row number ≤ c", taken on the row numbers with a
    unit axis added and reduced by `and` over that axis, holds at every token. -/
private theorem mask_one (ids : IVec S32x8192 32) (c : BitVec 32) (hc : c.toNat < 2 ^ 31)
    (hid : ∀ k, (ids k).toNat ≤ c.toNat) (i : S32x8192.Idx) :
    Host.reduce IntOp.andi
      (andi
        (cmpi .sge (broadcastInDim S32x8192x1 ![0, 1] bcast_S32x8192_S32x8192x1_0_1 ids)
          (broadcastInDim S32x8192x1 ![] bcast_S_S32x8192x1 (constantI S_ 32 0#32)))
        (cmpi .sle (broadcastInDim S32x8192x1 ![0, 1] bcast_S32x8192_S32x8192x1_0_1 ids)
          (broadcastInDim S32x8192x1 ![0, 1, 2] bcast_S1x1x1_S32x8192x1_0_1_2
            (broadcastInDim S1x1x1 ![2] bcast_S1_S1x1x1_2 (constantI S1 32 c)))))
      (constantI S_ 1 1#1) reducesTo_S32x8192x1_S32x8192_d2 h_S_ i = 1#1 :=
  reduce_andi_ones _ _ _ (fun _ => in_range_bit _ _ hc (hid _)) i

/-- The same test repeated along the table's columns holds at every entry of the result. -/
private theorem mask_bcast_one (ids : IVec S32x8192 32) (c : BitVec 32) (hc : c.toNat < 2 ^ 31)
    (hid : ∀ k, (ids k).toNat ≤ c.toNat) (j : S32x8192x512.Idx) :
    broadcastInDim S32x8192x512 ![0, 1] bcast_S32x8192_S32x8192x512_0_1
      (Host.reduce IntOp.andi
        (andi
          (cmpi .sge (broadcastInDim S32x8192x1 ![0, 1] bcast_S32x8192_S32x8192x1_0_1 ids)
            (broadcastInDim S32x8192x1 ![] bcast_S_S32x8192x1 (constantI S_ 32 0#32)))
          (cmpi .sle (broadcastInDim S32x8192x1 ![0, 1] bcast_S32x8192_S32x8192x1_0_1 ids)
            (broadcastInDim S32x8192x1 ![0, 1, 2] bcast_S1x1x1_S32x8192x1_0_1_2
              (broadcastInDim S1x1x1 ![2] bcast_S1_S1x1x1_2 (constantI S1 32 c)))))
        (constantI S_ 1 1#1) reducesTo_S32x8192x1_S32x8192_d2 h_S_) j = 1#1 :=
  mask_one ids c hc hid _

/-- The row numbers with a unit axis added, read at (b, s, 0): the row number of token (b, s). -/
private theorem bcast_unit_apply {α : Type} (g : S32x8192.Idx → α) (b : Fin 32) (s : Fin 8192) (u : Fin 1) :
    broadcastInDim S32x8192x1 ![0, 1] bcast_S32x8192_S32x8192x1_0_1 g (ix3 b s u) = g (ix2 b s) := by
  unfold broadcastInDim
  congr 1
  funext a
  match a with
  | ⟨0, _⟩ => rfl
  | ⟨1, _⟩ => rfl

/-! ## The gather of rows read at an index

The operand is the table [1726, 512], the start indices [32, 8192, 1] hold one row number per token, a slice is one
whole row (sizes [1, 512]), the row axis is collapsed and the column axis is the result's last axis. So the operand
index of result index (b, s, d) is, on the row axis, the start index read signed and clamped into [0, 1725], and on
the column axis the offset coordinate d. -/

/-- The gather's dimension numbers. -/
private abbrev rowsDims : GatherDims S1726x512 S32x8192x1 S32x8192x512 :=
  gather_S1726x512_S32x8192x1_S32x8192x512_2_0_n_n_0_2_1512

/-- THE GATHER READ AT (b, s, d): entry d of the table's row `r`, for `r` the start index at (b, s, 0) read signed
    and clamped into [0, 1725]. -/
private theorem gather_rows_apply {α : Type} (tab : S1726x512.Idx → α) (st : IVec S32x8192x1 32)
    (b : Fin 32) (s : Fin 8192) (d : Fin 512) (r : Fin 1726)
    (hr : r.val = min (st (ix3 b s (0 : Fin 1))).toInt.toNat 1725) :
    Host.gather rowsDims tab st (ix3 b s d) = tab (ix2 r d) := by
  unfold Host.gather
  congr 1
  funext a
  refine Fin.ext ?_
  match a with
  | ⟨0, _⟩ =>
    show rowsDims.start (ix3 b s d) st 0 + rowsDims.batchCoord (ix3 b s d) 0 + rowsDims.offCoord (ix3 b s d) 0 = r.val
    rw [GatherDims.batchCoord_eq_zero rowsDims _ _ List.not_mem_nil,
      GatherDims.offCoord_eq_zero rowsDims _ _
        (fun h => ((GatherDims.mem_sKept rowsDims _).mp h).1 (List.mem_singleton.mpr rfl))]
    simp only [Nat.add_zero]
    unfold GatherDims.start
    rw [dif_pos (show (0 : Fin 2) ∈ rowsDims.startIndexMap from List.mem_singleton.mpr rfl)]
    have hsi : rowsDims.siIdx (ix3 b s d) ⟨List.idxOf (0 : Fin 2) rowsDims.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, hr]
    rfl
  | ⟨1, _⟩ =>
    show rowsDims.start (ix3 b s d) st 1 + rowsDims.batchCoord (ix3 b s d) 1 + rowsDims.offCoord (ix3 b s d) 1 = d.val
    have h1 : (1 : Fin 2) ∈ rowsDims.sKept :=
      (GatherDims.mem_sKept rowsDims _).mpr ⟨by decide, List.not_mem_nil⟩
    rw [GatherDims.batchCoord_eq_zero rowsDims _ _ List.not_mem_nil]
    unfold GatherDims.start GatherDims.offCoord
    rw [dif_neg (show (1 : Fin 2) ∉ rowsDims.startIndexMap from by decide), dif_pos h1]
    simp only [Nat.add_zero, Nat.zero_add]
    rfl

/-! ## The rows at the row numbers -/

/-- With every row number below 1726 the gathered rows are the embedding of the row numbers in the table. -/
theorem gatherRows_eq (tab : Vec Ideal S1726x512 .f32) (idx : IVec S32x8192 32) (h : Cert.Fused.RowsOk idx) :
    gatherRows tab idx = Cert.Fused.G idx tab := by
  funext i
  obtain ⟨b, s, d, rfl⟩ : ∃ b s d, i = ix3 b s d := ⟨i 0, i 1, i 2, eq_ix3 i⟩
  rw [Cert.Fused.G_apply]
  have e1725 : (1725#32 : BitVec 32).toNat = 1725 := by decide
  have hr : (idx (ix2 b s)).toNat < 1726 := h _
  have hint : (idx (ix2 b s)).toInt = ((idx (ix2 b s)).toNat : ℤ) := toInt_eq_toNat_of_lt (by omega)
  unfold gatherRows
  dsimp only
  rw [wrap_eq idx _ (fun k => by have := h k; omega), select_apply,
    mask_bcast_one idx _ (by decide) (fun k => by have := h k; omega), select_one]
  refine gather_rows_apply tab _ b s d (Cert.Fused.rowAt idx b s) ?_
  show (idx (ix2 b s)).toNat % 1726 = _
  rw [bcast_unit_apply, hint, Int.toNat_natCast, Nat.mod_eq_of_lt hr]
  omega

/-- The reference's result is the embedding of its row numbers in its fused table. -/
theorem refOut_eq (a0 : IVec S32x8192 32) (a1 : IVec S1725 32) (a2 : Vec Ideal S3x512 .f32) (a3 : Vec Ideal S9x512 .f32)
    (a4 : Vec Ideal S512x512 .f32) (a5 : Vec Ideal S128x512 .f32) (a6 : Vec Ideal S32x512 .f32)
    (a7 : Vec Ideal S129x512 .f32) (a8 : Vec Ideal S16x512 .f32) (a9 a10 a11 : Vec Ideal S128x512 .f32)
    (a12 : Vec Ideal S512x512 .f32) (a13 : Vec Ideal S512 .f32)
    (h : Cert.Fused.RowsOk (takeRow a1 a0)) :
    refOut (F := Ideal) a0 a1 a2 a3 a4 a5 a6 a7 a8 a9 a10 a11 a12 a13
      = Cert.Fused.G (takeRow a1 a0) (table a2 a3 a4 a5 a6 a7 a8 a9 a10 a11 a12 a13) := by
  unfold refOut
  exact gatherRows_eq _ _ h

end Cert.ReferenceIdeal.Hand

end
-- ==== Proof.lean ====
/-
  The certificate: a fused-embedding lookup. Both programs stack twelve float tables into one table of 1726 rows,
  look each token's id up in the flat map to get a row number, and answer that row of the table. The reference gathers
  the rows directly. The kernel clips the row numbers into the table, pads the table with zero rows, splits it into a
  high part (the table rounded to a narrower float format) and a low part (the table minus the widened high part) and
  selects rows by one-hot matrix products, chunk by chunk of the vocabulary, adding the two parts.
  On the extended reals a change of float format is the identity, so the high part is the table and the low part is
  table - table, which is zero because every entry is a real number (the precondition's finiteness); the one-hot
  products select row j exactly (0 · x = 0 for every extended real x); and with token ids inside the flat map and
  flat-map entries inside the table (the precondition's two range conjuncts) the reference's wrap of negative
  indices, its out-of-range fill and the kernel's clip all leave the row numbers as they are. Both results are then
  entry d of token (b, s)'s table row, at every (b, s, d).
  The three frames: the kernel program's (at both instances) is the launch of its one region over proof data whose
  output block is the body's stored value; the reference is a straight-line host program, and its run gives its frame.
-/
import proofs.«401078_j56676388438136_3_alg».proof.Defs
import proofs.«401078_j56676388438136_3_alg».proof.Proof.Gen.Kernel
import proofs.«401078_j56676388438136_3_alg».proof.Proof.Gen.KernelIdeal
import proofs.«401078_j56676388438136_3_alg».proof.Proof.Gen.ReferenceIdeal
import proofs.«401078_j56676388438136_3_alg».proof.Proof.Gen.Pre_finite_inputs
import proofs.«401078_j56676388438136_3_alg».proof.Proof.Spec
import proofs.«401078_j56676388438136_3_alg».proof.Proof.Bridge
import proofs.«401078_j56676388438136_3_alg».proof.Proof.KFrame
import proofs.«401078_j56676388438136_3_alg».proof.Proof.KFrameB
import proofs.«401078_j56676388438136_3_alg».proof.Proof.KHost
import proofs.«401078_j56676388438136_3_alg».proof.Proof.KValue
import proofs.«401078_j56676388438136_3_alg».proof.Proof.PreFacts
import proofs.«401078_j56676388438136_3_alg».proof.Proof.RefRun
import proofs.«401078_j56676388438136_3_alg».proof.Proof.RowRange
import proofs.«401078_j56676388438136_3_alg».proof.Proof.RefValue

noncomputable section

namespace Cert.Proof

open Idealize.ShloMosaic Idealize.SL.Sem

/-- The kernel program runs and leaves its arguments alone, read at the word-level instance. -/
theorem frame_k : Cert.frame_Kernel := fun m ρ _ => Cert.Kernel.Hand.frame m ρ

/-- The same at the ideal instance. -/
theorem frame_ki : Cert.frame_KernelIdeal := fun m ρ _ => Cert.KernelIdeal.Hand.frame m ρ

/-- The reference is host operations only: its run, with the result dropped, is its frame. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the embedding of the row numbers into the fused table. -/
theorem algebraic : Cert.algebraic_KernelIdeal_ReferenceIdeal := by
  intro m ρ m' ρ' hpre hagree
  -- the precondition, decoded on each core: ids and flat map in range, every table entry real
  have hf := fun c : Dev Cert.KernelIdeal.nD => Cert.Pre_finite_inputs.Hand.facts_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  have hrowsR : ∀ c : Dev Cert.KernelIdeal.nD, Cert.Fused.RowsOk (Cert.ReferenceIdeal.Hand.takeRow (m ((c.tc : Thread Cert.KernelIdeal.nD Cert.KernelIdeal.τ).loc Cert.KernelIdeal.main_arg1)) (m ((c.tc : Thread Cert.KernelIdeal.nD Cert.KernelIdeal.τ).loc Cert.KernelIdeal.main_arg0))) :=
    fun c => Cert.ReferenceIdeal.Hand.takeRow_rows _ _ (hf c).1
  have hrows : ∀ c : Dev Cert.KernelIdeal.nD, Cert.Fused.RowsOk (Cert.KernelIdeal.Hand.idx m c) := fun c => hrowsR c
  have hreal : ∀ c : Dev Cert.KernelIdeal.nD, Cert.Fused.AllReal (Cert.KernelIdeal.Hand.tab m c) := fun c => by
    obtain ⟨-, h2, h3, h4, h5, h6, h7, h8, h9, h10, h11, h12, h13⟩ := hf c
    exact Cert.KernelIdeal.Hand.tab_real m c h2 h3 h4 h5 h6 h7 h8 h9 h10 h11 h12 h13
  refine ⟨fun c => Cert.Fused.G (Cert.KernelIdeal.Hand.idx m c) (Cert.KernelIdeal.Hand.tab m c), Cert.KernelIdeal.Hand.run m ρ hrows hreal, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact Cert.ReferenceIdeal.Hand.refOut_eq _ _ _ _ _ _ _ _ _ _ _ _ _ _ (hrowsR c)

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
